-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x512x256 : Shape := ⟨4, ![32, 16, 512, 256]⟩
abbrev S128 : Shape := ⟨1, ![128]⟩
abbrev S32x16x512x128 : Shape := ⟨4, ![32, 16, 512, 128]⟩
abbrev S_ : Shape := ⟨0, ![]⟩
abbrev S128x1 : Shape := ⟨2, ![128, 1]⟩
abbrev S1x128 : Shape := ⟨2, ![1, 128]⟩
abbrev S128x128 : Shape := ⟨2, ![128, 128]⟩

class Facts : Prop where
  bcast_S_S32x16x512x256 : S_.BroadcastsInDim S32x16x512x256 (![] : Fin 0 → Fin S32x16x512x256.rank)
  reducesTo_S32x16x512x256_S_d0_1_2_3 : S32x16x512x256.ReducesTo [0, 1, 2, 3] S_
  h_S_ : 0 < S_.numel
  bcast_S_S128 : S_.BroadcastsInDim S128 (![] : Fin 0 → Fin S128.rank)
  reducesTo_S128_S_d0 : S128.ReducesTo [0] S_
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  reducesTo_S128x128_S_d0_1 : S128x128.ReducesTo [0, 1] S_

variable [Facts]

def fn_part1 {F : FTy → Type} [FloatOps F] (main_v11 : IVec S_ 1) (main_v16 : IVec S128x128 1) (main_v17 : IVec S128x1 32) (main_v18 : IVec S1x128 32) : IVec S_ 1 :=
  let main_v19 : IVec S128x128 32 := broadcastInDim S128x128 ![0, 1] bcast_S128x1_S128x128_0_1 main_v17
  let main_v20 : IVec S128x128 32 := broadcastInDim S128x128 ![0, 1] bcast_S1x128_S128x128_0_1 main_v18
  let main_v21 : IVec S128x128 1 := cmpi .eq main_v19 main_v20
  let main_v22 : IVec S128x128 1 := ori main_v16 main_v21
  let main_c_3 : IVec S_ 1 := constantI S_ 1 1#1
  let main_v23 : IVec S_ 1 := (fun x v => Host.reduce IntOp.andi x v reducesTo_S128x128_S_d0_1 h_S_) main_v22 main_c_3
  let main_v24 : IVec S_ 1 := andi main_v11 main_v23
  main_v24

def fn {F : FTy → Type} [FloatOps F] (main_arg0 : FVec F S32x16x512x256 .f32) (main_arg1 : IVec S128 32) (main_arg2 : IVec S32x16x512x128 1) : IVec S_ 1 :=
  let main_v0 : IVec S128 32 := iotaInDim S128 32 0
  let main_v1 : FVec F S32x16x512x256 .f32 := Host.absf main_arg0
  let main_cst : FVec F S_ .f32 := constant S_ .f32 0x7F800000#32
  let main_v2 : FVec F S32x16x512x256 .f32 := broadcastInDim S32x16x512x256 ![] bcast_S_S32x16x512x256 main_cst
  let main_v3 : IVec S32x16x512x256 1 := cmpf .olt main_v1 main_v2
  let main_c : IVec S_ 1 := constantI S_ 1 1#1
  let main_v4 : IVec S_ 1 := (fun x v => Host.reduce IntOp.andi x v reducesTo_S32x16x512x256_S_d0_1_2_3 h_S_) main_v3 main_c
  let main_c_0 : IVec S_ 32 := constantI S_ 32 0#32
  let main_v5 : IVec S128 32 := broadcastInDim S128 ![] bcast_S_S128 main_c_0
  let main_v6 : IVec S128 1 := cmpi .sge main_arg1 main_v5
  let main_c_1 : IVec S_ 32 := constantI S_ 32 256#32
  let main_v7 : IVec S128 32 := broadcastInDim S128 ![] bcast_S_S128 main_c_1
  let main_v8 : IVec S128 1 := cmpi .slt main_arg1 main_v7
  let main_v9 : IVec S128 1 := andi main_v6 main_v8
  let main_c_2 : IVec S_ 1 := constantI S_ 1 1#1
  let main_v10 : IVec S_ 1 := (fun x v => Host.reduce IntOp.andi x v reducesTo_S128_S_d0 h_S_) main_v9 main_c_2
  let main_v11 : IVec S_ 1 := andi main_v4 main_v10
  let main_v12 : IVec S128x1 32 := broadcastInDim S128x1 ![0] bcast_S128_S128x1_0 main_arg1
  let main_v13 : IVec S1x128 32 := broadcastInDim S1x128 ![1] bcast_S128_S1x128_1 main_arg1
  let main_v14 : IVec S128x128 32 := broadcastInDim S128x128 ![0, 1] bcast_S128x1_S128x128_0_1 main_v12
  let main_v15 : IVec S128x128 32 := broadcastInDim S128x128 ![0, 1] bcast_S1x128_S128x128_0_1 main_v13
  let main_v16 : IVec S128x128 1 := cmpi .ne main_v14 main_v15
  let main_v17 : IVec S128x1 32 := broadcastInDim S128x1 ![0] bcast_S128_S128x1_0 main_v0
  let main_v18 : IVec S1x128 32 := broadcastInDim S1x128 ![1] bcast_S128_S1x128_1 main_v0
  fn_part1 (F := F) main_v11 main_v16 main_v17 main_v18
-- ==== Kernel.lean ====
abbrev S32x16x512x256 : Shape := ⟨4, ![32, 16, 512, 256]⟩
abbrev S128 : Shape := ⟨1, ![128]⟩
abbrev S32x16x512x128 : Shape := ⟨4, ![32, 16, 512, 128]⟩
abbrev S262144x256 : Shape := ⟨2, ![262144, 256]⟩
abbrev S262144x128 : Shape := ⟨2, ![262144, 128]⟩
abbrev S128x1 : Shape := ⟨2, ![128, 1]⟩
abbrev S1x256 : Shape := ⟨2, ![1, 256]⟩
abbrev S128x256 : Shape := ⟨2, ![128, 256]⟩
abbrev S_ : Shape := ⟨0, ![]⟩
abbrev S256 : Shape := ⟨1, ![256]⟩
abbrev S4096x256 : Shape := ⟨2, ![4096, 256]⟩
abbrev S4096x128 : Shape := ⟨2, ![4096, 128]⟩
abbrev S4096 : Shape := ⟨1, ![4096]⟩
abbrev S4096x1 : Shape := ⟨2, ![4096, 1]⟩

abbrev nBuf : Space → Nat
  | .hbm => 18
  | .vmem => 8
  | .smem => 0
  | _ => 0

abbrev bufTy : (tb : Table) → Fin (tcTables nBuf tb) → BufTy
  | .hbm, ⟨0, _⟩ => ⟨S32x16x512x256, .f32⟩
  | .hbm, ⟨1, _⟩ => ⟨S128, .i32⟩
  | .hbm, ⟨2, _⟩ => ⟨S32x16x512x128, .i1⟩
  | .hbm, ⟨3, _⟩ => ⟨S262144x256, .f32⟩
  | .hbm, ⟨4, _⟩ => ⟨S262144x128, .i1⟩
  | .hbm, ⟨5, _⟩ => ⟨S128x1, .i32⟩
  | .hbm, ⟨6, _⟩ => ⟨S1x256, .i32⟩
  | .hbm, ⟨7, _⟩ => ⟨S128x256, .i32⟩
  | .hbm, ⟨8, _⟩ => ⟨S128x256, .i32⟩
  | .hbm, ⟨9, _⟩ => ⟨S128x256, .i1⟩
  | .hbm, ⟨10, _⟩ => ⟨S128x256, .bf16⟩
  | .hbm, ⟨11, _⟩ => ⟨S128x256, .f32⟩
  | .hbm, ⟨12, _⟩ => ⟨S_, .f32⟩
  | .hbm, ⟨13, _⟩ => ⟨S256, .f32⟩
  | .hbm, ⟨14, _⟩ => ⟨S1x256, .f32⟩
  | .hbm, ⟨15, _⟩ => ⟨S262144x128, .i32⟩
  | .hbm, ⟨16, _⟩ => ⟨S262144x256, .f32⟩
  | .hbm, ⟨17, _⟩ => ⟨S32x16x512x256, .f32⟩
  | .local _ .vmem, ⟨0, _⟩ => ⟨S4096x256, .f32⟩
  | .local _ .vmem, ⟨1, _⟩ => ⟨S4096x256, .f32⟩
  | .local _ .vmem, ⟨2, _⟩ => ⟨S4096x128, .i32⟩
  | .local _ .vmem, ⟨3, _⟩ => ⟨S4096x128, .i32⟩
  | .local _ .vmem, ⟨4, _⟩ => ⟨S128x256, .bf16⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | _, _ => ⟨S32x16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x16x512x256_S262144x256 : S32x16x512x256.ShapeCasts S262144x256
  shapeCasts_S32x16x512x128_S262144x128 : S32x16x512x128.ShapeCasts S262144x128
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  bitsLt_bf16_f32 : FTy.bits .bf16 < FTy.bits .f32
  reducesTo_S128x256_S256_d0 : S128x256.ReducesTo [0] S256
  h_S_ : 0 < S_.numel
  bcast_S256_S1x256_1 : S256.BroadcastsInDim S1x256 (![1] : Fin 1 → Fin S1x256.rank)
  natLt_1_32 : 1 < 32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S4096x256_S4096 : S4096x256.Reduces [1] S4096
  shapeCasts_S4096_S4096x1 : S4096.ShapeCasts S4096x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  shapeCasts_S262144x256_S32x16x512x256 : S262144x256.ShapeCasts S32x16x512x256
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S262144x256.size a
  hwx0_4 : ∀ i : grid0.Coords, EltTy.bits .f32 = 32 ∨ (Rect.block (s := S262144x256) S4096x256.size (cc0_transform_4 i) (hinb0_4 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x16x512x256 : Shape := ⟨4, ![32, 16, 512, 256]⟩
abbrev S128 : Shape := ⟨1, ![128]⟩
abbrev S32x16x512x128 : Shape := ⟨4, ![32, 16, 512, 128]⟩
abbrev S_ : Shape := ⟨0, ![]⟩
abbrev S128x1 : Shape := ⟨2, ![128, 1]⟩
abbrev S32x16x512 : Shape := ⟨3, ![32, 16, 512]⟩
abbrev S32x16x512x1 : Shape := ⟨4, ![32, 16, 512, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x16x512x256, .f32⟩
  | .hbm, ⟨1, _⟩ => ⟨S128, .i32⟩
  | .hbm, ⟨2, _⟩ => ⟨S32x16x512x128, .i1⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S32x16x512x128, .f32⟩
  | .hbm, ⟨12, _⟩ => ⟨S_, .f32⟩
  | .hbm, ⟨13, _⟩ => ⟨S32x16x512, .f32⟩
  | .hbm, ⟨14, _⟩ => ⟨S_, .f32⟩
  | .hbm, ⟨15, _⟩ => ⟨S32x16x512x128, .f32⟩
  | .hbm, ⟨16, _⟩ => ⟨S32x16x512x128, .f32⟩
  | .hbm, ⟨17, _⟩ => ⟨S_, .f32⟩
  | .hbm, ⟨18, _⟩ => ⟨S32x16x512, .f32⟩
  | .hbm, ⟨19, _⟩ => ⟨S32x16x512, .f32⟩
  | .hbm, ⟨20, _⟩ => ⟨S_, .f32⟩
  | .hbm, ⟨21, _⟩ => ⟨S32x16x512, .f32⟩
  | .hbm, ⟨22, _⟩ => ⟨S32x16x512, .f32⟩
  | .hbm, ⟨23, _⟩ => ⟨S32x16x512x1, .f32⟩
  | .hbm, ⟨24, _⟩ => ⟨S32x16x512x128, .f32⟩
  | .hbm, ⟨25, _⟩ => ⟨S32x16x512x128, .f32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S32x16x512x256, .f32⟩
  | _, _ => ⟨S32x16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  reducesTo_S32x16x512x128_S32x16x512_d3 : S32x16x512x128.ReducesTo [3] S32x16x512
  h_S_ : 0 < S_.numel
  bcast_S_S32x16x512x128 : S_.BroadcastsInDim S32x16x512x128 (![] : Fin 0 → Fin S32x16x512x128.rank)
  bcast_S_S32x16x512 : S_.BroadcastsInDim S32x16x512 (![] : Fin 0 → Fin S32x16x512.rank)
  bcast_S32x16x512_S32x16x512x1_0_1_2 : S32x16x512.BroadcastsInDim S32x16x512x1 (![0, 1, 2] : Fin 3 → Fin S32x16x512x1.rank)
  bcast_S32x16x512x1_S32x16x512x128_0_1_2_3 : S32x16x512x1.BroadcastsInDim S32x16x512x128 (![0, 1, 2, 3] : Fin 4 → Fin S32x16x512x128.rank)
  gather_S32x16x512x256_S128x1_S32x16x512x128_012_3_n_n_3_1_32165121_wf : GatherDims.WF S32x16x512x256 S128x1 S32x16x512x128 [0, 1, 2] [3] [] [3] [] 1 ![32, 16, 512, 1]
  scatter_S32x16x512x256_S128x1_S32x16x512x128_012_3_3_1_wf : ScatterDims.WF S32x16x512x256 S128x1 S32x16x512x128 [0, 1, 2] [3] [3] 1

variable [Facts₀]

def gather_S32x16x512x256_S128x1_S32x16x512x128_012_3_n_n_3_1_32165121 : GatherDims S32x16x512x256 S128x1 S32x16x512x128 where
  offsetDims := [0, 1, 2]
  collapsedSliceDims := [3]
  operandBatchingDims := []
  startIndicesBatchingDims := []
  startIndexMap := [3]
  indexVectorDim := 1
  sliceSizes := ![32, 16, 512, 1]
  wf := gather_S32x16x512x256_S128x1_S32x16x512x128_012_3_n_n_3_1_32165121_wf
def scatter_S32x16x512x256_S128x1_S32x16x512x128_012_3_3_1 : ScatterDims S32x16x512x256 S128x1 S32x16x512x128 where
  updateWindowDims := [0, 1, 2]
  insertedWindowDims := [3]
  scatterDimsToOperandDims := [3]
  indexVectorDim := 1
  wf := scatter_S32x16x512x256_S128x1_S32x16x512x128_012_3_3_1_wf

class Facts : Prop extends Facts₀ where

variable [Facts]
-- ==== Proof.KernelPayload.lean ====
/-
  The kernel body's stored value at one element (p, q) of its [4096, 256] block, over the
  extended reals. With x the block of X, w the block of mask words, G the 0/1 channel table and
  s the channel indicator row:
    d(p, q)   = Σ_k flag(w(p, k)) · G(k, q)            (the matrix product: the "dropped" indicator)
    out(p, q) = (x(p, q) − x(p, q) · d(p, q)) + ((Σ_q' x(p, q') · d(p, q')) · 2⁻⁷) · s(0, q)
  The product into a zero accumulator is the plain sum over the one contracted axis, the lane
  reduction is the plain row sum, and the casts and broadcasts only move indices.
-/
import proofs.«413043_j3650722201830_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
open scoped BigOperators
namespace Cert.KernelIdeal.Pay
open Cert.KernelIdeal Cert.KernelIdeal.Gen Idealize.ShloMosaic Idealize.ShloMosaic.TcCoe Idealize.ShloMosaic.ValueIdx

/-- The left operand's index on its free axis is the result's row. -/
theorem lhs_ax0 (j : S4096x256.Idx) (k : dot_S4096x128_S128x256_S4096x256_1_0_0_1_n_n.contr.Idx) :
    (dot_S4096x128_S128x256_S4096x256_1_0_0_1_n_n.lhsIdx j k (0 : Fin S4096x128.rank)).val = (j 0).val := by
  unfold DotDims.lhsIdx
  rw [dif_neg (show ¬ (0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl

/-- The left operand's index on its contracted axis is the contraction position. -/
theorem lhs_ax1 (j : S4096x256.Idx) (k : dot_S4096x128_S128x256_S4096x256_1_0_0_1_n_n.contr.Idx) :
    (dot_S4096x128_S128x256_S4096x256_1_0_0_1_n_n.lhsIdx j k (1 : Fin S4096x128.rank)).val = (k ⟨0, by decide⟩).val :=
  dot_S4096x128_S128x256_S4096x256_1_0_0_1_n_n.lhsIdx_val_of_single rfl j k

/-- The right operand's index on its contracted axis is the contraction position. -/
theorem rhs_ax0 (j : S4096x256.Idx) (k : dot_S4096x128_S128x256_S4096x256_1_0_0_1_n_n.contr.Idx) :
    (dot_S4096x128_S128x256_S4096x256_1_0_0_1_n_n.rhsIdx j k (0 : Fin S128x256.rank)).val = (k ⟨0, by decide⟩).val :=
  dot_S4096x128_S128x256_S4096x256_1_0_0_1_n_n.rhsIdx_val_of_single rfl j k

/-- The right operand's index on its free axis is the result's column. -/
theorem rhs_ax1 (j : S4096x256.Idx) (k : dot_S4096x128_S128x256_S4096x256_1_0_0_1_n_n.contr.Idx) :
    (dot_S4096x128_S128x256_S4096x256_1_0_0_1_n_n.rhsIdx j k (1 : Fin S128x256.rank)).val = (j 1).val := by
  unfold DotDims.rhsIdx
  rw [dif_neg (show ¬ (1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- The matrix product at (p, q) is the sum over the 128 contraction positions of left(p, k) · right(k, q). -/
theorem mm_apply (l : FVec Ideal S4096x128 .bf16) (r : FVec Ideal S128x256 .bf16) (p : Fin 4096) (q : Fin 256) :
    matmul (F := Ideal) dot_S4096x128_S128x256_S4096x256_1_0_0_1_n_n none l r (constant S4096x256 .f32 0x00000000#32) (ix2 p q)
      = ∑ k : Fin 128, l (ix2 p k) * r (ix2 k q) := by
  refine (Ideal.matmul_constant_zero_apply dot_S4096x128_S128x256_S4096x256_1_0_0_1_n_n none l r (ix2 p q)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p q)
      ((contrEquiv1 dot_S4096x128_S128x256_S4096x256_1_0_0_1_n_n 128 rfl rfl).symm k) = ix2 p k := by
    funext a; apply Fin.ext
    match a with
    | ⟨0, _⟩ => exact lhs_ax0 _ _
    | ⟨1, _⟩ => exact (lhs_ax1 _ _).trans hk
  have er : dot_S4096x128_S128x256_S4096x256_1_0_0_1_n_n.rhsIdx (ix2 p q)
      ((contrEquiv1 dot_S4096x128_S128x256_S4096x256_1_0_0_1_n_n 128 rfl rfl).symm k) = ix2 k q := by
    funext a; apply Fin.ext
    match a with
    | ⟨0, _⟩ => exact (rhs_ax0 _ _).trans hk
    | ⟨1, _⟩ => exact rhs_ax1 _ _
  rw [el, er]

/-- a vector as a column: [a] cast to [a, 1] reads, at (p, 0), the vector at p -/
theorem cast_col_apply {α : Type} (v : S4096.Idx → α) (p : Fin 4096) (z : Fin 1) :
    shapeCast S4096x1 v shapeCasts_S4096_S4096x1 (ix2 p z) = v (ix1 p) := by
  refine shapeCast_apply v _ (ix2 p z) (ix1 p) ?_
  rw [Shape.rowMajor_val_one, Shape.rowMajor_val_two]
  show p.val = p.val * 1 + z.val
  have := z.isLt
  omega

/-- a column broadcast along the rows: [a, 1] to [a, b] reads, at (p, q), the column at (p, 0) -/
theorem bcast_col_apply {α : Type} (v : S4096x1.Idx → α) (p : Fin 4096) (q : Fin 256) :
    broadcastTo S4096x256 v broadcasts_S4096x1_S4096x256 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The dropped/kept flag of a mask word as an extended real: 1 when the word is not zero, 0 when it is. -/
abbrev flag (w : BitVec 32) : EReal := FloatOps.sitofp (F := Ideal) .f32 ((IntOp.cmpi .ne w 0#32).setWidth 32)

/-- the dropped indicator of channel q in row p of the block -/
abbrev ind (x1 : Vec Ideal S4096x128 .i32) (x2 : Vec Ideal S128x256 .bf16) (p : Fin 4096) (q : Fin 256) : EReal :=
  ∑ k : Fin 128, flag (x1 (ix2 p k)) * x2 (ix2 k q)

/-- a row sum of a [4096, 256] block at row p -/
theorem rowsum_apply (src : FVec Ideal S4096x256 .f32) (hφ : FKind.Formats .f32)
    (hacc : (0x00000000#32 : BitVec 32) = FKind.add.neutral .f32 hφ) (p : Fin 4096) :
    multiReduction (F := Ideal) .add [1] S4096 src 0x00000000#32 reduces_S4096x256_S4096 hφ hacc (ix1 p)
      = ∑ q' : Fin 256, src (ix2 p q') := by
  refine (Ideal.multiReduction_add_single src 0x00000000#32 reduces_S4096x256_S4096 hφ hacc (ix1 p)).trans ?_
  refine Finset.sum_congr rfl fun q' _ => congrArg src ?_
  funext a; apply Fin.ext
  match a with
  | ⟨0, _⟩ => rfl
  | ⟨1, _⟩ => rfl

/-- The stored value at (p, q): the formula of this file's header. -/
theorem pay_apply (x0 : Vec Ideal S4096x256 .f32) (x1 : Vec Ideal S4096x128 .i32) (x2 : Vec Ideal S128x256 .bf16) (x3 : Vec Ideal S1x256 .f32)
    (p : Fin 4096) (q : Fin 256) :
    k0_pay1 (F := Ideal) x0 x1 x2 x3 (ix2 p q)
      = (x0 (ix2 p q) - x0 (ix2 p q) * ind x1 x2 p q)
        + ((∑ q' : Fin 256, x0 (ix2 p q') * ind x1 x2 p q') * Ideal.ofBits .f32 0x3C000000#32) * x3 (ix2 (0 : Fin 1) q) := by
  have hmm : ∀ q' : Fin 256, (matmul (F := Ideal) dot_S4096x128_S128x256_S4096x256_1_0_0_1_n_n none
      (truncf .bf16 (sitofp .f32 (extui 32 (cmpi .ne x1 (constantI S4096x128 32 0#32)) natLt_1_32)) bitsLt_bf16_f32) x2
      (constant S4096x256 .f32 0x00000000#32)) (ix2 p q') = ind x1 x2 p q' := fun q' => mm_apply _ x2 p q'
  unfold k0_pay1
  simp only [shapeCast_self, addf_apply, subf_apply, mulf_apply, bcast_col_apply, broadcastTo_1b_ab_apply, cast_col_apply, broadcast_apply, rowsum_apply, hmm]
  refine congrArg (fun z : EReal => x0 (ix2 p q) - x0 (ix2 p q) * ind x1 x2 p q
      + z * Ideal.ofBits .f32 0x3C000000#32 * x3 (ix2 (0 : Fin 1) q)) ?_
  refine (rowsum_apply _ _ _ p).trans ?_
  exact Finset.sum_congr rfl fun q' _ => congrArg (x0 (ix2 p q') * ·) (hmm q')

end Cert.KernelIdeal.Pay
end
-- ==== Proof.KernelRun.lean ====
/-
  From blocks to the whole result of the kernel program, over the extended reals.
  The region walks 64 grid points; point t reads rows [4096·t, 4096·t + 4096) of the flattened X
  and of the flattened mask words, the whole 0/1 channel table and the whole indicator row, and
  writes the same rows of the flat result. Each written block is the restriction of ONE function
  of the four arrays (`flatOut`), the 64 blocks tile the flat result, so after the run the flat
  result IS that function; the host then only regroups [262144, 256] to [32, 16, 512, 256].
-/
import proofs.«413043_j3650722201830_3_alg».proof.Proof.Gen.KernelIdeal.Frame
import proofs.«413043_j3650722201830_3_alg».proof.Proof.KernelPayload
import Idealize.ShloMosaic.Lib.StableHlo.Run
import Idealize.ShloMosaic.Lib.ValueIdx
import Idealize.ShloMosaic.Lib.Pipeline.Value

set_option maxRecDepth 16384
noncomputable section
open scoped BigOperators
namespace Cert.KernelIdeal.KV
open Cert.KernelIdeal Cert.KernelIdeal.Gen Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The zero offset of a whole-block access. -/
theorem hz : (![0, 0] : Fin 2 → Nat) = fun _ => 0 := funext fun a => by fin_cases a <;> rfl

/-- The "dropped" indicator of channel q in row r of the flat arrays: Σ_k flag(word(r, k)) · table(k, q). -/
abbrev indA (Mf : S262144x128.Idx → BitVec 32) (G : S128x256.Idx → EReal) (r : Fin 262144) (q : Fin 256) : EReal :=
  ∑ k : Fin 128, Pay.flag (Mf (ix2 r k)) * G (ix2 k q)

/-- The whole flat result as one function of the four arrays the region reads:
    (x − x·d) + ((Σ_q' x·d) · 2⁻⁷) · indicator, row by row. -/
def flatOut (Xf : S262144x256.Idx → EReal) (Mf : S262144x128.Idx → BitVec 32) (G : S128x256.Idx → EReal) (s : S1x256.Idx → EReal) :
    S262144x256.Idx → EReal := fun i =>
  (Xf i - Xf i * indA Mf G (i 0) (i 1))
    + ((∑ q' : Fin 256, Xf (ix2 (i 0) q') * indA Mf G (i 0) q') * Ideal.ofBits .f32 0x3C000000#32) * s (ix2 (0 : Fin 1) (i 1))

/-- The four arrays as the region finds them: flattened X, flattened mask words, channel table, indicator row. -/
abbrev xarr (c : Dev nD) : S262144x256.Idx → EReal := V m c main_v0
abbrev marr (c : Dev nD) : S262144x128.Idx → BitVec 32 := V m c main_v6
abbrev garr (c : Dev nD) : S128x256.Idx → EReal := V m c main_v2
abbrev sarr (c : Dev nD) : S1x256.Idx → EReal := V m c main_v5

/-- The block index maps over the 64 grid points: X, the mask words and the result move together along the rows
    (block t), the table and the indicator row stay at block 0, and nothing moves along the columns. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- The body's formula over blocks that are the rows `row` of the four arrays is the flat formula at `(row, q)`. -/
theorem flat_of_blocks (Xf : S262144x256.Idx → EReal) (Mf : S262144x128.Idx → BitVec 32) (G : S128x256.Idx → EReal) (s : S1x256.Idx → EReal)
    (x0 : Vec Ideal S4096x256 .f32) (x1 : Vec Ideal S4096x128 .i32) (x2 : Vec Ideal S128x256 .bf16) (x3 : Vec Ideal S1x256 .f32)
    (row : Fin 262144) (p : Fin 4096) (q : Fin 256)
    (h0 : ∀ q' : Fin 256, x0 (ix2 p q') = Xf (ix2 row q')) (h1 : ∀ k : Fin 128, x1 (ix2 p k) = Mf (ix2 row k))
    (h2 : ∀ (k : Fin 128) (q' : Fin 256), x2 (ix2 k q') = G (ix2 k q')) (h3 : x3 (ix2 (0 : Fin 1) q) = s (ix2 (0 : Fin 1) q)) :
    x0 (ix2 p q) - x0 (ix2 p q) * Pay.ind x1 x2 p q
        + (∑ q' : Fin 256, x0 (ix2 p q') * Pay.ind x1 x2 p q') * Ideal.ofBits .f32 0x3C000000#32 * x3 (ix2 (0 : Fin 1) q)
      = flatOut Xf Mf G s (ix2 row q) := by
  simp only [Pay.ind, h0, h1, h2, h3]
  rfl

/-- Row p of block t is row 4096·t + p of the flat arrays. -/
theorem row_lt (t : Fin cfg0.N) (p : Fin 4096) : t.val * 4096 + p.val < 262144 := by
  have ht : t.val < 64 := t.isLt
  have hp := p.isLt
  omega

/-- What point t writes back is block t of `flatOut` of the four arrays. -/
theorem flushed4_eq (c : Dev nD) (t : Fin cfg0.N) :
    (dats m 0 c).flushed 4 t = ((cfg0.win 4).blk t).view.read (Elt Ideal) (flatOut (xarr m c) (marr m c) (garr m c) (sarr m c)) := by
  show (cfg0.win 4).cut (grid0.coords t) ((dats m 0 c).after 4 t) = _
  rw [after0_4]
  unfold out0_4
  rw [View.canon_unit_zero hz]
  simp only [View.ld_unit_zero (S := S4096x256) hz, View.ld_unit_zero (S := S4096x128) hz, View.ld_unit_zero (S := S128x256) hz, View.ld_unit_zero (S := S1x256) hz]
  funext j
  obtain ⟨p, q, rfl⟩ : ∃ (p : Fin 4096) (q : Fin 256), j = ix2 p q := ⟨j 0, j 1, eq_ix2 j⟩
  refine (Pay.pay_apply _ _ _ _ p q).trans ?_
  obtain ⟨e00, e01, e10, e11, e20, e21, e30, e31, e41, e40⟩ := idx_facts t
  refine (flat_of_blocks (xarr m c) (marr m c) (garr m c) (sarr m c) (iblk m c 0 t) (iblk m c 1 t) (iblk m c 2 t) (iblk m c 3 t)
    ⟨t.val * 4096 + p.val, row_lt t p⟩ p q ?_ ?_ ?_ ?_).trans ?_
  · intro q'
    show V m c main_v0 (((cfg0.win 0).blk t).view.emb (ix2 p q')) = V m c main_v0 (ix2 ⟨t.val * 4096 + p.val, row_lt t p⟩ q')
    refine congrArg (V m c main_v0) (funext fun a => Fin.ext ?_)
    match a with
    | ⟨0, _⟩ => show win0_0.index t (0 : Fin 2) * 4096 + 1 * p.val = t.val * 4096 + p.val; omega
    | ⟨1, _⟩ => show win0_0.index t (1 : Fin 2) * 256 + 1 * q'.val = q'.val; omega
  · intro k
    show V m c main_v6 (((cfg0.win 1).blk t).view.emb (ix2 p k)) = V m c main_v6 (ix2 ⟨t.val * 4096 + p.val, row_lt t p⟩ k)
    refine congrArg (V m c main_v6) (funext fun a => Fin.ext ?_)
    match a with
    | ⟨0, _⟩ => show win0_1.index t (0 : Fin 2) * 4096 + 1 * p.val = t.val * 4096 + p.val; omega
    | ⟨1, _⟩ => show win0_1.index t (1 : Fin 2) * 128 + 1 * k.val = k.val; omega
  · intro k q'
    show V m c main_v2 (((cfg0.win 2).blk t).view.emb (ix2 k q')) = V m c main_v2 (ix2 k q')
    refine congrArg (V m c main_v2) (funext fun a => Fin.ext ?_)
    match a with
    | ⟨0, _⟩ => show win0_2.index t (0 : Fin 2) * 128 + 1 * k.val = k.val; omega
    | ⟨1, _⟩ => show win0_2.index t (1 : Fin 2) * 256 + 1 * q'.val = q'.val; omega
  · show V m c main_v5 (((cfg0.win 3).blk t).view.emb (ix2 (0 : Fin 1) q)) = V m c main_v5 (ix2 (0 : Fin 1) q)
    refine congrArg (V m c main_v5) (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  · show flatOut (xarr m c) (marr m c) (garr m c) (sarr m c) (ix2 ⟨t.val * 4096 + p.val, row_lt t p⟩ q)
      = flatOut (xarr m c) (marr m c) (garr m c) (sarr m c) (((cfg0.win 4).blk t).view.emb (ix2 p q))
    refine congrArg (flatOut (xarr m c) (marr m c) (garr m c) (sarr m c)) (funext fun a => Fin.ext ?_)
    match a with
    | ⟨0, _⟩ => show t.val * 4096 + p.val = win0_4.index t (0 : Fin 2) * 4096 + 1 * p.val; omega
    | ⟨1, _⟩ => show q.val = win0_4.index t (1 : Fin 2) * 256 + 1 * q.val; omega

/-- An index of the flat array is in point `t`'s block iff each coordinate is in the block's range on its axis. -/
theorem mem_blk4 (t : Fin cfg0.N) (i : S262144x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v7).slice (win0_4.rect t)).set ↔ _
  rw [View.set_slice_whole, Rect.mem_set_unit]
  exact Iff.rfl

/-- Every row of the flat array lies in the block of the point `row / 4096`. -/
theorem cover4 (i : S262144x256.Idx) : ∃ t : Fin cfg0.N, (cfg0.win 4).flush t = true ∧ i ∈ ((cfg0.win 4).blk t).view.set := by
  have hi0 : (i 0).val < 262144 := (i 0).isLt
  have hi1 : (i 1).val < 256 := (i 1).isLt
  have hN : cfg0.N = 64 := N_0
  let t : Fin cfg0.N := ⟨(i 0).val / 4096, by rw [hN]; omega⟩
  obtain ⟨e00, e01, e10, e11, e20, e21, e30, e31, e41, e40⟩ := idx_facts t
  have ht : t.val = (i 0).val / 4096 := rfl
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-- The flat result array after the run is the flat formula of the four arrays the region reads. -/
theorem final4 (c : Dev nD) : (dats m 0 c).arrAt 4 cfg0.N = flatOut (xarr m c) (marr m c) (garr m c) (sarr m c) :=
  (dats m 0 c).arrAt_eq_of_cover 4 (flatOut (xarr m c) (marr m c) (garr m c) (sarr m c)) (fun t _ => flushed4_eq m c t) cover4

/-- The program's result: the flat result regrouped to [32, 16, 512, 256]. -/
theorem tail_eq (c : Dev nD) :
    (Pipeline.afterTail₀ cfgs (dats m) 0 (V0 m) [hostOps1] c main_v8 : S32x16x512x256.Idx → EReal)
      = shapeCast S32x16x512x256 (flatOut (xarr m c) (marr m c) (garr m c) (sarr m c)) shapeCasts_S262144x256_S32x16x512x256 := by
  unfold Pipeline.afterTail₀
  show StableHlo.after hostOps1 _ (Proc.devRef .tc main_v8) = _
  after_results
  have hw : (Pipeline.withArrays (cfgs 0).spec c (V0 m c) (fun w => (dats m 0 c).arrAt w (cfgs 0).N) (Proc.tc.devRef main_v7) : S262144x256.Idx → EReal)
      = flatOut (xarr m c) (marr m c) (garr m c) (sarr m c) :=
    (Pipeline.withArrays_arr spec0 launch0.win.arr_inj c _ _ 4).trans (final4 m c)
  exact congrArg (fun A : S262144x256.Idx → EReal => shapeCast S32x16x512x256 A shapeCasts_S262144x256_S32x16x512x256) hw

/-- The run: the result buffer ends at the regrouped flat formula, the three arguments unchanged. -/
theorem run : θ_run defs (onTc (τ := τ) (main (F := Ideal))) ⟨m, fun _ => 0, ρ⟩ fun r => ∀ c : Dev nD,
      r.2.mem ((c.tc : Thread nD τ).loc main_v8)
        = shapeCast S32x16x512x256 (flatOut (xarr m c) (marr m c) (garr m c) (sarr m c)) shapeCasts_S262144x256_S32x16x512x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV
end
-- ==== Proof.KernelArrays.lean ====
/-
  The four arrays the region reads, and the regrouping after it, as functions of the program's
  arguments, read at an index.
  Row (b, c, t) of the [32, 16, 512, ·] arrays is row (16·b + c)·512 + t of the flattened ones.
  The channel table at (k, q) is 1 when channel number k equals q and 0 otherwise (an equality
  test of 32-bit words turned into a number); the indicator row at q is the table's column sum.
-/
import proofs.«413043_j3650722201830_3_alg».proof.Proof.KernelRun
import Idealize.ShloMosaic.Lib.StableHlo.Predicate

set_option maxRecDepth 16384
noncomputable section
open scoped BigOperators
namespace Cert.KernelIdeal.KA
open Cert.KernelIdeal Cert.KernelIdeal.Gen Idealize.ShloMosaic Idealize.ShloMosaic.TcCoe Idealize.SL.Sem Idealize.ShloMosaic.StableHlo Idealize.ShloMosaic.ValueIdx
open Idealize.ShloMosaic.StableHlo.Predicate (bcast_rows bcast_of_row bcast_row1 ij i1q)

variable (m : (ℓ : Loc nD τ sig) → Buf (Elt Ideal) ℓ)

/-- The flat row of (b, c, t). -/
abbrev rowOf (b : Fin 32) (c : Fin 16) (t : Fin 512) : Fin 262144 :=
  ⟨(b.val * 16 + c.val) * 512 + t.val, by have := b.isLt; have := c.isLt; have := t.isLt; omega⟩

/-- Flattened X at (row(b, c, t), f) is X at (b, c, t, f). -/
theorem flatten_apply {α : Type} (X : S32x16x512x256.Idx → α) (b : Fin 32) (c : Fin 16) (t : Fin 512) (f : Fin 256) :
    shapeCast S262144x256 X shapeCasts_S32x16x512x256_S262144x256 (ix2 (rowOf b c t) f) = X (ix4 b c t f) := by
  refine shapeCast_apply X _ (ix2 (rowOf b c t) f) (ix4 b c t f) ?_
  rw [Shape.rowMajor_val_four, Shape.rowMajor_val_two]
  rfl

/-- The same for the [32, 16, 512, 128] mask. -/
theorem flattenM_apply {α : Type} (X : S32x16x512x128.Idx → α) (b : Fin 32) (c : Fin 16) (t : Fin 512) (k : Fin 128) :
    shapeCast S262144x128 X shapeCasts_S32x16x512x128_S262144x128 (ix2 (rowOf b c t) k) = X (ix4 b c t k) := by
  refine shapeCast_apply X _ (ix2 (rowOf b c t) k) (ix4 b c t k) ?_
  rw [Shape.rowMajor_val_four, Shape.rowMajor_val_two]
  rfl

/-- The regrouped result at (b, c, t, f) is the flat result at (row(b, c, t), f). -/
theorem regroup_apply {α : Type} (A : S262144x256.Idx → α) (b : Fin 32) (c : Fin 16) (t : Fin 512) (f : Fin 256) :
    shapeCast S32x16x512x256 A shapeCasts_S262144x256_S32x16x512x256 (ix4 b c t f) = A (ix2 (rowOf b c t) f) := by
  refine shapeCast_apply A _ (ix4 b c t f) (ix2 (rowOf b c t) f) ?_
  rw [Shape.rowMajor_val_four, Shape.rowMajor_val_two]
  rfl

/-! ## The four arrays the region reads, as terms of the arguments -/

/-- The first array is X flattened. -/
theorem xarr_eq (c : Dev nD) : KV.xarr m c
    = shapeCast S262144x256 (m ((c : Thread nD τ).loc main_arg0)) shapeCasts_S32x16x512x256_S262144x256 := by
  dsimp only [KV.xarr, Gen.V, Gen.V0]
  simp only [Gen.hostOps0, Gen.hostOps0_1, Gen.hostOps0_2, List.flatten_cons, List.flatten_nil, List.append_nil, List.cons_append, List.nil_append]
  after_results
  rfl

/-- The second array is the flattened mask with each bit widened to a 32-bit word. -/
theorem marr_eq (c : Dev nD) : KV.marr m c
    = extui 32 (shapeCast S262144x128 (m ((c : Thread nD τ).loc main_arg2)) shapeCasts_S32x16x512x128_S262144x128) natLt_1_32 := by
  dsimp only [KV.marr, Gen.V, Gen.V0]
  simp only [Gen.hostOps0, Gen.hostOps0_1, Gen.hostOps0_2, List.flatten_cons, List.flatten_nil, List.append_nil, List.cons_append, List.nil_append]
  after_results
  rfl

/-- The 0/1 channel table as a term of the channel numbers: entry (k, q) tests idx k = q. -/
abbrev table (idx : S128.Idx → BitVec 32) : S128x256.Idx → EReal :=
  uitofp (F := Ideal) .bf16 (cmpi .eq (broadcastInDim S128x256 ![0, 1] bcast_S128x1_S128x256_0_1 (broadcastInDim S128x1 ![0] bcast_S128_S128x1_0 idx))
        (broadcastInDim S128x256 ![0, 1] bcast_S1x256_S128x256_0_1 (iotaInDim S1x256 32 1)))

/-- The third array is the channel table. -/
theorem garr_eq (c : Dev nD) : KV.garr m c = table (m ((c : Thread nD τ).loc main_arg1)) := by
  dsimp only [KV.garr, Gen.V, Gen.V0]
  simp only [Gen.hostOps0, Gen.hostOps0_1, Gen.hostOps0_2, List.flatten_cons, List.flatten_nil, List.append_nil, List.cons_append, List.nil_append]
  after_results
  rfl

/-- The fourth array is the table summed over k, kept as a [1, 256] row. -/
theorem sarr_eq (c : Dev nD) : KV.sarr m c
    = broadcastInDim S1x256 ![1] bcast_S256_S1x256_1
        (Host.reduceAdd (extf (F := Ideal) .f32 (table (m ((c : Thread nD τ).loc main_arg1))) bitsLt_bf16_f32) (constant S_ .f32 0x00000000#32) reducesTo_S128x256_S256_d0 h_S_) := by
  dsimp only [KV.sarr, Gen.V, Gen.V0]
  simp only [Gen.hostOps0, Gen.hostOps0_1, Gen.hostOps0_2, List.flatten_cons, List.flatten_nil, List.append_nil, List.cons_append, List.nil_append]
  after_results
  rfl

/-- The table at (k, q) is the equality bit of idx k and q, as a number. -/
theorem table_apply (idx : S128.Idx → BitVec 32) (k : Fin 128) (q : Fin 256) :
    table idx (ix2 k q) = (((IntOp.cmpi .eq (idx (Shape.Idx.ofFin k)) (BitVec.ofNat 32 q.val)).toNat : ℝ) : EReal) := by
  show (((IntOp.cmpi .eq (broadcastInDim S128x256 ![0, 1] bcast_S128x1_S128x256_0_1 (broadcastInDim S128x1 ![0] bcast_S128_S128x1_0 idx) (ij k q))
      (broadcastInDim S128x256 ![0, 1] bcast_S1x256_S128x256_0_1 (iotaInDim S1x256 32 1) (ij k q))).toNat : ℝ) : EReal) = _
  rw [bcast_rows, bcast_of_row]
  rfl

/-- The indicator row at channel f is zero plus the table's column sum. -/
theorem indicator_apply (idx : S128.Idx → BitVec 32) (f : Fin 256) :
    broadcastInDim S1x256 ![1] bcast_S256_S1x256_1
        (Host.reduceAdd (extf (F := Ideal) .f32 (table idx) bitsLt_bf16_f32) (constant S_ .f32 0x00000000#32) reducesTo_S128x256_S256_d0 h_S_) (ix2 (0 : Fin 1) f)
      = Ideal.ofBits .f32 0x00000000#32 + ∑ k : Fin 128, table idx (ix2 k f) := by
  have e : (ix2 (0 : Fin 1) f : S1x256.Idx) = i1q f := funext fun a => by
    match a with
    | ⟨0, _⟩ => rfl
    | ⟨1, _⟩ => rfl
  rw [e]
  refine (bcast_row1 bcast_S256_S1x256_1
    (Host.reduceAdd (extf (F := Ideal) .f32 (table idx) bitsLt_bf16_f32) (constant S_ .f32 0x00000000#32) reducesTo_S128x256_S256_d0 h_S_) f).trans ?_
  simp only [Host.reduceAdd, Ideal.hostReduceAdd_def]
  rw [Ideal.hostReduceAdd_single reducesTo_S128x256_S256_d0 (by decide)]
  refine congrArg (_ + ·) (Finset.sum_congr rfl fun k _ => ?_)
  show table idx _ = _
  exact congrArg (table idx) (funext fun a => Fin.ext (by match a with | ⟨0, _⟩ => rfl | ⟨1, _⟩ => rfl))

end Cert.KernelIdeal.KA
end
-- ==== Proof.KernelResult.lean ====
/-
  The kernel program's result as ONE function of its three arguments, read at an index.
  At (b, c, t, f), with d(q) = Σ_k flag(mask(b, c, t, k)) · table(k, q) the "dropped" indicator
  of channel q in that row:
    result = (X − X · d(f)) + ((Σ_q' X(b, c, t, q') · d(q')) · 2⁻⁷) · (0 + Σ_k table(k, f)).
-/
import proofs.«413043_j3650722201830_3_alg».proof.Proof.KernelRun
import proofs.«413043_j3650722201830_3_alg».proof.Proof.KernelArrays

set_option maxRecDepth 16384
noncomputable section
open scoped BigOperators
namespace Cert.KernelIdeal.KA
open Cert.KernelIdeal Cert.KernelIdeal.Gen Idealize.ShloMosaic Idealize.ShloMosaic.TcCoe Idealize.SL.Sem Idealize.ShloMosaic.StableHlo Idealize.ShloMosaic.ValueIdx

/-- The kernel program's result as one function of its three arguments. -/
def kernelResult (X : S32x16x512x256.Idx → EReal) (idx : S128.Idx → BitVec 32) (mask : S32x16x512x128.Idx → BitVec 1) :
    S32x16x512x256.Idx → EReal :=
  shapeCast S32x16x512x256
    (KV.flatOut (shapeCast S262144x256 X shapeCasts_S32x16x512x256_S262144x256)
      (extui 32 (shapeCast S262144x128 mask shapeCasts_S32x16x512x128_S262144x128) natLt_1_32)
      (table idx)
      (broadcastInDim S1x256 ![1] bcast_S256_S1x256_1
        (Host.reduceAdd (extf (F := Ideal) .f32 (table idx) bitsLt_bf16_f32) (constant S_ .f32 0x00000000#32) reducesTo_S128x256_S256_d0 h_S_)))
    shapeCasts_S262144x256_S32x16x512x256

/-- The "dropped" indicator of channel q in row (b, c, t). -/
abbrev dropAt (idx : S128.Idx → BitVec 32) (mask : S32x16x512x128.Idx → BitVec 1) (b : Fin 32) (c : Fin 16) (t : Fin 512) (q : Fin 256) : EReal :=
  ∑ k : Fin 128, Pay.flag ((mask (ix4 b c t k)).setWidth 32) * table idx (ix2 k q)

/-- The result at (b, c, t, f): the formula of this file's header. -/
theorem kernelResult_apply (X : S32x16x512x256.Idx → EReal) (idx : S128.Idx → BitVec 32) (mask : S32x16x512x128.Idx → BitVec 1)
    (b : Fin 32) (c : Fin 16) (t : Fin 512) (f : Fin 256) :
    kernelResult X idx mask (ix4 b c t f)
      = (X (ix4 b c t f) - X (ix4 b c t f) * dropAt idx mask b c t f)
        + ((∑ q' : Fin 256, X (ix4 b c t q') * dropAt idx mask b c t q') * Ideal.ofBits .f32 0x3C000000#32)
          * (Ideal.ofBits .f32 0x00000000#32 + ∑ k : Fin 128, table idx (ix2 k f)) := by
  unfold kernelResult
  rw [regroup_apply]
  unfold KV.flatOut
  simp only [KV.indA]
  show (shapeCast S262144x256 X shapeCasts_S32x16x512x256_S262144x256 (ix2 (rowOf b c t) f)
        - shapeCast S262144x256 X shapeCasts_S32x16x512x256_S262144x256 (ix2 (rowOf b c t) f)
          * ∑ k : Fin 128, Pay.flag (extui 32 (shapeCast S262144x128 mask shapeCasts_S32x16x512x128_S262144x128) natLt_1_32 (ix2 (rowOf b c t) k)) * table idx (ix2 k f))
      + ((∑ q' : Fin 256, shapeCast S262144x256 X shapeCasts_S32x16x512x256_S262144x256 (ix2 (rowOf b c t) q')
          * ∑ k : Fin 128, Pay.flag (extui 32 (shapeCast S262144x128 mask shapeCasts_S32x16x512x128_S262144x128) natLt_1_32 (ix2 (rowOf b c t) k)) * table idx (ix2 k q'))
          * Ideal.ofBits .f32 0x3C000000#32)
        * broadcastInDim S1x256 ![1] bcast_S256_S1x256_1
            (Host.reduceAdd (extf (F := Ideal) .f32 (table idx) bitsLt_bf16_f32) (constant S_ .f32 0x00000000#32) reducesTo_S128x256_S256_d0 h_S_) (ix2 (0 : Fin 1) f) = _
  simp only [flatten_apply, extui_apply, flattenM_apply]
  rw [indicator_apply idx f]

variable (m : (ℓ : Loc nD τ sig) → Buf (Elt Ideal) ℓ) (ρ : Dev nD → PrngReg)

/-- The run, over the program's arguments: the result buffer ends at `kernelResult` of the three argument arrays. -/
theorem run : θ_run defs (onTc (τ := τ) (main (F := Ideal))) ⟨m, fun _ => 0, ρ⟩ fun r => ∀ c : Dev nD,
      r.2.mem ((c.tc : Thread nD τ).loc main_v8)
        = kernelResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      unfold kernelResult
      rw [xarr_eq m c, marr_eq m c, garr_eq m c, sarr_eq m c]), (h c).2⟩) (KV.run m ρ)

end Cert.KernelIdeal.KA
end
-- ==== Proof.PreFacts.lean ====
/-
  What the precondition says, decoded: every entry of X is a real number (neither infinity),
  every channel number lies in [0, 256), and the channel numbers are pairwise distinct.
  The printed predicate is the conjunction of three "all" reductions: |X| < +inf elementwise;
  0 ≤ idx ∧ idx < 256 elementwise (signed compares); and, over the 128 × 128 square of pairs
  (p, q), idx p ≠ idx q or p = q.
-/
import proofs.«413043_j3650722201830_3_alg».proof.Pre_finite_inputs
import Idealize.ShloMosaic.Lib.StableHlo.Predicate
import Idealize.ShloMosaic.Lib.ReduceAll
import Idealize.ShloMosaic.PureOps.Ideal

noncomputable section

namespace Cert.PreFacts

open Idealize.ShloMosaic Cert.Pre_finite_inputs

variable [Cert.Pre_finite_inputs.Facts]

open Facts

/-- The rank-0 shape has exactly one index. -/
private instance : Subsingleton S_.Idx := ⟨fun a b => funext fun d => d.elim0⟩

/-- The printed predicate is a conjunction of three "all" reductions; when it is 1, each of the three
    reduced arrays is 1 at every index: |X| < +inf at every entry, 0 ≤ idx ∧ idx < 256 at every position,
    and idx p ≠ idx q ∨ p = q at every pair (p, q). -/
private theorem split3 (X : FVec Ideal S32x16x512x256 .f32) (idx : IVec S128 32) (mask : IVec S32x16x512x128 1)
    (h : fn (F := Ideal) X idx mask = fun _ => 1#1) :
    (∀ i : S32x16x512x256.Idx,
        cmpf CmpFPredicate.olt (Host.absf X)
          (broadcastInDim S32x16x512x256 ![] bcast_S_S32x16x512x256 (constant (F := Ideal) S_ FTy.f32 0x7F800000#32)) i = 1#1)
    ∧ (∀ k : S128.Idx,
        andi (cmpi CmpIPredicate.sge idx (broadcastInDim S128 ![] bcast_S_S128 (constantI S_ 32 0#32)))
             (cmpi CmpIPredicate.slt idx (broadcastInDim S128 ![] bcast_S_S128 (constantI S_ 32 256#32))) k = 1#1)
    ∧ (∀ j : S128x128.Idx,
        ori
          (cmpi CmpIPredicate.ne (broadcastInDim S128x128 ![0, 1] bcast_S128x1_S128x128_0_1 (broadcastInDim S128x1 ![0] bcast_S128_S128x1_0 idx))
            (broadcastInDim S128x128 ![0, 1] bcast_S1x128_S128x128_0_1 (broadcastInDim S1x128 ![1] bcast_S128_S1x128_1 idx)))
          (cmpi CmpIPredicate.eq
            (broadcastInDim S128x128 ![0, 1] bcast_S128x1_S128x128_0_1 (broadcastInDim S128x1 ![0] bcast_S128_S128x1_0 (iotaInDim S128 32 0)))
            (broadcastInDim S128x128 ![0, 1] bcast_S1x128_S128x128_0_1 (broadcastInDim S1x128 ![1] bcast_S128_S1x128_1 (iotaInDim S128 32 0)))) j = 1#1) := by
  -- the value of the predicate at the one index of the rank-0 result
  have h0 := congrFun h (fun a => a.elim0)
  dsimp only [fn, fn_part1] at h0
  -- a conjunction of bits is 1 exactly when each bit is 1
  obtain ⟨h12, h3⟩ := IntOp.andi_eq_one.1 h0
  obtain ⟨h1, h2⟩ := IntOp.andi_eq_one.1 h12
  -- an "and" reduction over all axes that is 1 met a 1 at every index
  exact ⟨Host.reduce_andi_all _ _ _ _ _ h1, Host.reduce_andi_all _ _ _ _ _ h2, Host.reduce_andi_all _ _ _ _ _ h3⟩

/-- Every entry of X is a real number. -/
theorem finite_of_pre (X : FVec Ideal S32x16x512x256 .f32) (idx : IVec S128 32) (mask : IVec S32x16x512x128 1)
    (h : fn (F := Ideal) X idx mask = fun _ => 1#1) (i : S32x16x512x256.Idx) :
    ∃ r : ℝ, X i = (r : EReal) := by
  obtain ⟨h1, -, -⟩ := split3 X idx mask h
  have e := h1 i
  -- the literal 0x7F800000 denotes +inf
  have htop : Ideal.ofBits .f32 0x7F800000#32 = (⊤ : EReal) := by simp [Ideal.ofBits, Ideal.ieee]
  -- the entry's bit reads max (X i) (-(X i)) < +inf
  change Ideal.cmp .olt (max (X i : EReal) (-(X i : EReal))) (Ideal.ofBits .f32 0x7F800000#32) = 1#1 at e
  rw [htop] at e
  unfold Ideal.cmp at e
  rw [StableHlo.Predicate.ofBool_eq_one_iff, decide_eq_true_eq, max_lt_iff] at e
  obtain ⟨e1, e2⟩ := e
  -- X i < ⊤ rules out ⊤, and -(X i) < ⊤ rules out ⊥
  induction hx : (X i : EReal) using EReal.rec with
  | bot => rw [hx] at e2; simp at e2
  | coe r => exact ⟨r, rfl⟩
  | top => rw [hx] at e1; simp at e1

/-- Every channel number is below 256 as an unsigned word (hence also non-negative as a signed one). -/
theorem inRange_of_pre (X : FVec Ideal S32x16x512x256 .f32) (idx : IVec S128 32) (mask : IVec S32x16x512x128 1)
    (h : fn (F := Ideal) X idx mask = fun _ => 1#1) (k : S128.Idx) :
    (idx k).toNat < 256 := by
  obtain ⟨-, h2, -⟩ := split3 X idx mask h
  obtain ⟨hge, hlt⟩ := IntOp.andi_eq_one.1 (h2 k)
  -- the two bits at position k: 0 ≤ idx k and idx k < 256, both as signed words
  change IntOp.cmpi .sge (idx k) 0#32 = 1#1 at hge
  change IntOp.cmpi .slt (idx k) 256#32 = 1#1 at hlt
  unfold IntOp.cmpi at hge hlt
  simp only [StableHlo.Predicate.ofBool_eq_one_iff, BitVec.sle, BitVec.slt, decide_eq_true_eq] at hge hlt
  have z0 : (0#32 : BitVec 32).toInt = 0 := by decide
  have z256 : (256#32 : BitVec 32).toInt = 256 := by decide
  rw [z0] at hge
  rw [z256] at hlt
  have hb := (idx k).isLt
  -- a word whose signed value is non-negative has that value as its unsigned value
  rw [BitVec.toInt_eq_toNat_cond] at hge hlt
  split at hge <;> omega

/-- The channel numbers are pairwise distinct. -/
theorem distinct_of_pre (X : FVec Ideal S32x16x512x256 .f32) (idx : IVec S128 32) (mask : IVec S32x16x512x128 1)
    (h : fn (F := Ideal) X idx mask = fun _ => 1#1) (k k' : S128.Idx) (hkk : idx k = idx k') :
    k = k' := by
  obtain ⟨-, -, h3⟩ := split3 X idx mask h
  -- a rank-1 index is determined by its one coordinate
  obtain ⟨p, hp⟩ : ∃ p : Fin 128, k = Shape.Idx.ofFin p := ⟨k 0, Shape.Idx.eq_ofFin k⟩
  obtain ⟨q, hq⟩ : ∃ q : Fin 128, k' = Shape.Idx.ofFin q := ⟨k' 0, Shape.Idx.eq_ofFin k'⟩
  subst hp hq
  -- at the pair (p, q): idx p ≠ idx q, or the positions p and q are equal as 32-bit words
  have e := h3 (StableHlo.Predicate.ij p q)
  rcases IntOp.ori_eq_one.1 e with hne | heq
  · exfalso
    change IntOp.cmpi .ne
        (broadcastInDim S128x128 ![0, 1] bcast_S128x1_S128x128_0_1 (broadcastInDim S128x1 ![0] bcast_S128_S128x1_0 idx) (StableHlo.Predicate.ij p q))
        (broadcastInDim S128x128 ![0, 1] bcast_S1x128_S128x128_0_1 (broadcastInDim S1x128 ![1] bcast_S128_S1x128_1 idx) (StableHlo.Predicate.ij p q)) = 1#1 at hne
    rw [StableHlo.Predicate.bcast_rows, StableHlo.Predicate.bcast_cols, hkk] at hne
    simp [IntOp.cmpi] at hne
  · change IntOp.cmpi .eq
        (broadcastInDim S128x128 ![0, 1] bcast_S128x1_S128x128_0_1 (broadcastInDim S128x1 ![0] bcast_S128_S128x1_0 (iotaInDim S128 32 0)) (StableHlo.Predicate.ij p q))
        (broadcastInDim S128x128 ![0, 1] bcast_S1x128_S128x128_0_1 (broadcastInDim S1x128 ![1] bcast_S128_S1x128_1 (iotaInDim S128 32 0)) (StableHlo.Predicate.ij p q)) = 1#1 at heq
    rw [StableHlo.Predicate.cmpi_eq_iff, StableHlo.Predicate.bcast_rows, StableHlo.Predicate.bcast_cols,
      StableHlo.Predicate.iota_apply, StableHlo.Predicate.iota_apply] at heq
    -- both positions are below 128, so equal words mean equal positions
    have hv := congrArg BitVec.toNat heq
    simp only [BitVec.toNat_ofNat] at hv
    have b1 : p.val < 128 := p.isLt
    have b2 : q.val < 128 := q.isLt
    have hv' : p.val = q.val := by omega
    rw [Fin.ext hv']

end Cert.PreFacts

end
-- ==== Proof.LibScatterSet.lean ====
/-
  A scatter whose combiner keeps the update ("set"), read at one operand index.
  The scatter is a left fold over all update indices, each step overwriting the operand
  element its update lands on. Read at a fixed operand index `i`: if no update lands on `i`
  the fold never touches it and the operand's element survives; if exactly one update index
  `j` lands on `i`, the fold's value at `i` is that update's element, whatever the order.
-/
import Idealize.ShloMosaic.PureOps.ShapeOps

noncomputable section

namespace Cert.ScatterSet

open Idealize.ShloMosaic

variable {α : Type} {s si u : Shape} {w : Nat}

/-- One step of the set-scatter's fold: the update at row-major position `n` overwrites the
    operand element it lands on, or is dropped when it lands outside. -/
private def step (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

/-- The set-scatter is the left fold of `step` over all row-major positions. -/
private theorem scatter_eq_foldl (d : ScatterDims s si u) (x : s.Idx → α) (idx : IVec si w)
    (upd : u.Idx → α) :
    Host.scatter d (fun _ v => v) x idx upd = (List.finRange u.numel).foldl (step d idx upd) x :=
  rfl

/-- A step whose update does not land on `i` leaves the element at `i` alone. -/
private theorem step_of_ne (d : ScatterDims s si u) (idx : IVec si w) (upd : u.Idx → α)
    (r : s.Idx → α) (n : Fin u.numel) (i : s.Idx)
    (h : d.resultIdx? (u.rowMajor.symm n) idx ≠ some i) : step d idx upd r n i = r i := by
  unfold step
  generalize d.resultIdx? (u.rowMajor.symm n) idx = o at h ⊢
  cases o with
  | none => rfl
  | some k =>
    have hik : i ≠ k := fun e => h (by rw [e])
    simp [hik]

/-- A step whose update lands on `i` writes that update's element at `i`. -/
private theorem step_of_eq (d : ScatterDims s si u) (idx : IVec si w) (upd : u.Idx → α)
    (r : s.Idx → α) (n : Fin u.numel) (i : s.Idx)
    (h : d.resultIdx? (u.rowMajor.symm n) idx = some i) :
    step d idx upd r n i = upd (u.rowMajor.symm n) := by
  unfold step
  generalize d.resultIdx? (u.rowMajor.symm n) idx = o at h ⊢
  cases o with
  | none => cases h
  | some k =>
    have hik : k = i := Option.some.inj h
    simp [hik]

/-- Folding over positions none of which lands on `i` keeps the element at `i`. -/
private theorem foldl_miss (d : ScatterDims s si u) (idx : IVec si w) (upd : u.Idx → α)
    (i : s.Idx) (l : List (Fin u.numel)) (x : s.Idx → α)
    (h : ∀ n ∈ l, d.resultIdx? (u.rowMajor.symm n) idx ≠ some i) :
    l.foldl (step d idx upd) x i = x i := by
  induction l generalizing x with
  | nil => rfl
  | cons a l ih =>
    rw [List.foldl_cons, ih _ (fun n hn => h n (List.mem_cons_of_mem _ hn))]
    exact step_of_ne d idx upd x a i (h a (List.mem_cons_self ..))

/-- Folding over positions among which `j`'s is present, and no other lands on `i`,
    leaves `upd j` at `i`. -/
private theorem foldl_hit (d : ScatterDims s si u) (idx : IVec si w) (upd : u.Idx → α)
    (i : s.Idx) (j : u.Idx) (hj : d.resultIdx? j idx = some i)
    (huniq : ∀ j' : u.Idx, d.resultIdx? j' idx = some i → j' = j)
    (l : List (Fin u.numel)) (x : s.Idx → α) (hmem : u.rowMajor j ∈ l) :
    l.foldl (step d idx upd) x i = upd j := by
  induction l generalizing x with
  | nil => cases hmem
  | cons a l ih =>
    rw [List.foldl_cons]
    by_cases hl : u.rowMajor j ∈ l
    · exact ih _ hl
    · have ha : a = u.rowMajor j := by
        rcases List.mem_cons.mp hmem with h | h
        · exact h.symm
        · exact absurd h hl
      have hsymm : u.rowMajor.symm a = j := by rw [ha, Equiv.symm_apply_apply]
      rw [foldl_miss d idx upd i l _ (fun n hn hn' => hl (by
        have : u.rowMajor.symm n = j := huniq _ hn'
        rw [← this, Equiv.apply_symm_apply]; exact hn))]
      rw [step_of_eq d idx upd x a i (by rw [hsymm]; exact hj), hsymm]

/-- If update index `j` lands on operand index `i` and no other update index does,
    the set-scatter holds `upd j` at `i`. -/
theorem scatter_set_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ v => v) x idx upd i = upd j := by
  rw [scatter_eq_foldl]
  exact foldl_hit d idx upd i j hj huniq _ x (List.mem_finRange _)

/-- If no update index lands on operand index `i`, the set-scatter keeps the operand's element there. -/
theorem scatter_set_miss (d : ScatterDims s si u) (x : s.Idx → α) (idx : IVec si w) (upd : u.Idx → α)
    (i : s.Idx) (hmiss : ∀ j : u.Idx, d.resultIdx? j idx ≠ some i) :
    Host.scatter d (fun _ v => v) x idx upd i = x i := by
  rw [scatter_eq_foldl]
  exact foldl_miss d idx upd i _ x (fun n _ => hmiss _)

end Cert.ScatterSet

end
-- ==== Proof.RefIndexing.lean ====
/-
  The reference's two index-dependent operations, read at an index, for a column of channel
  numbers that all lie in [0, 256):
  the gather along the last axis reads channel `col k` of the same row, and the set-scatter
  along the last axis writes update `(row, k)` to channel `col k` of that row; with pairwise
  distinct channel numbers each written channel has exactly one writer, and every other
  channel keeps the operand's element.
-/
import proofs.«413043_j3650722201830_3_alg».proof.ReferenceIdeal
import proofs.«413043_j3650722201830_3_alg».proof.Proof.LibScatterSet
import Idealize.ShloMosaic.Lib.ValueIdx

noncomputable section

namespace Cert.RefIndexing

open Idealize.ShloMosaic Idealize.ShloMosaic.ValueIdx Cert.ReferenceIdeal

variable [Cert.ReferenceIdeal.Facts₀] {α : Type}

/-- The gather at `(b, c, t, k)` is the operand at channel `col k` of row `(b, c, t)`. -/
theorem gather_apply (x : S32x16x512x256.Idx → α) (col : IVec S128x1 32)
    (b : Fin 32) (c : Fin 16) (t : Fin 512) (k : Fin 128) (hk : (col (ix2 k (0 : Fin 1))).toNat < 256) :
    Host.gather gather_S32x16x512x256_S128x1_S32x16x512x128_012_3_n_n_3_1_32165121 x col (ix4 b c t k)
      = x (ix4 b c t ⟨(col (ix2 k (0 : Fin 1))).toNat, hk⟩) := by
  -- The operand index is, axis by axis, clamped start + batching coordinate + offset coordinate.
  unfold Host.gather
  congr 1
  funext a
  refine Fin.ext ?_
  show GatherDims.start gather_S32x16x512x256_S128x1_S32x16x512x128_012_3_n_n_3_1_32165121 (ix4 b c t k) col a
      + GatherDims.batchCoord gather_S32x16x512x256_S128x1_S32x16x512x128_012_3_n_n_3_1_32165121 (ix4 b c t k) a
      + GatherDims.offCoord gather_S32x16x512x256_S128x1_S32x16x512x128_012_3_n_n_3_1_32165121 (ix4 b c t k) a = _
  -- there are no batching axes
  rw [GatherDims.batchCoord_eq_zero _ _ _ List.not_mem_nil, Nat.add_zero]
  match a with
  | ⟨0, _⟩ =>
    -- axis 0 is not in the start index map: start 0, offset coordinate `b`
    have hs : GatherDims.start gather_S32x16x512x256_S128x1_S32x16x512x128_012_3_n_n_3_1_32165121 (ix4 b c t k) col ⟨0, by decide⟩ = 0 :=
      dif_neg (show (⟨0, by decide⟩ : Fin 4) ∉ ([3] : List (Fin 4)) by decide)
    rw [hs, Nat.zero_add]
    rfl
  | ⟨1, _⟩ =>
    have hs : GatherDims.start gather_S32x16x512x256_S128x1_S32x16x512x128_012_3_n_n_3_1_32165121 (ix4 b c t k) col ⟨1, by decide⟩ = 0 :=
      dif_neg (show (⟨1, by decide⟩ : Fin 4) ∉ ([3] : List (Fin 4)) by decide)
    rw [hs, Nat.zero_add]
    rfl
  | ⟨2, _⟩ =>
    have hs : GatherDims.start gather_S32x16x512x256_S128x1_S32x16x512x128_012_3_n_n_3_1_32165121 (ix4 b c t k) col ⟨2, by decide⟩ = 0 :=
      dif_neg (show (⟨2, by decide⟩ : Fin 4) ∉ ([3] : List (Fin 4)) by decide)
    rw [hs, Nat.zero_add]
    rfl
  | ⟨3, _⟩ =>
    -- axis 3 is collapsed (offset coordinate 0) and its start is the column entry at `(k, 0)`,
    -- read signed and clamped to [0, 255]: the identity on a word below 256
    have ho : GatherDims.offCoord gather_S32x16x512x256_S128x1_S32x16x512x128_012_3_n_n_3_1_32165121 (ix4 b c t k) ⟨3, by decide⟩ = 0 :=
      dif_neg (show (⟨3, by decide⟩ : Fin 4) ∉ ([0, 1, 2] : List (Fin 4)) by decide)
    rw [ho, Nat.add_zero]
    have hmem : (⟨3, by decide⟩ : Fin 4) ∈ GatherDims.startIndexMap gather_S32x16x512x256_S128x1_S32x16x512x128_012_3_n_n_3_1_32165121 :=
      (show (⟨3, by decide⟩ : Fin 4) ∈ ([3] : List (Fin 4)) by decide)
    have hs : GatherDims.start gather_S32x16x512x256_S128x1_S32x16x512x128_012_3_n_n_3_1_32165121 (ix4 b c t k) col ⟨3, by decide⟩
        = min (col (GatherDims.siIdx gather_S32x16x512x256_S128x1_S32x16x512x128_012_3_n_n_3_1_32165121 (ix4 b c t k)
            ⟨List.idxOf (⟨3, by decide⟩ : Fin 4) (GatherDims.startIndexMap gather_S32x16x512x256_S128x1_S32x16x512x128_012_3_n_n_3_1_32165121),
              List.idxOf_lt_length_iff.2 hmem⟩)).toInt.toNat (256 - 1) :=
      dif_pos hmem
    have hsi : GatherDims.siIdx gather_S32x16x512x256_S128x1_S32x16x512x128_012_3_n_n_3_1_32165121 (ix4 b c t k)
        ⟨List.idxOf (⟨3, by decide⟩ : Fin 4) (GatherDims.startIndexMap gather_S32x16x512x256_S128x1_S32x16x512x128_012_3_n_n_3_1_32165121),
          List.idxOf_lt_length_iff.2 hmem⟩ = ix2 k (0 : Fin 1) := by
      funext e; refine Fin.ext ?_
      match e with
      | ⟨0, _⟩ => rfl
      | ⟨1, _⟩ => rfl
    rw [hs, hsi, BitVec.toInt_eq_toNat_of_lt (by omega)]
    show min (((col (ix2 k (0 : Fin 1))).toNat : Int)).toNat (256 - 1) = (col (ix2 k (0 : Fin 1))).toNat
    rw [Int.toNat_natCast]
    omega

/-- Where update `(b, c, t, k)` lands, axis by axis: the start (the column entry at `(k, 0)`, read
    signed, on axis 3 and `0` elsewhere) plus the window coordinate (the update's own coordinate
    on axes 0, 1, 2 and `0` on the inserted axis 3) is the coordinate of `(b, c, t, col k)`. -/
private theorem landing (col : IVec S128x1 32) (b : Fin 32) (c : Fin 16) (t : Fin 512) (k : Fin 128)
    (hk : (col (ix2 k (0 : Fin 1))).toNat < 256) (a : Fin 4) :
    ScatterDims.start scatter_S32x16x512x256_S128x1_S32x16x512x128_012_3_3_1 (ix4 b c t k) col a
        + (ScatterDims.window scatter_S32x16x512x256_S128x1_S32x16x512x128_012_3_3_1 (ix4 b c t k) a : Int)
      = ((ix4 b c t (⟨(col (ix2 k (0 : Fin 1))).toNat, hk⟩ : Fin 256) a).val : Int) := by
  match a with
  | ⟨0, _⟩ =>
    have hs : ScatterDims.start scatter_S32x16x512x256_S128x1_S32x16x512x128_012_3_3_1 (ix4 b c t k) col ⟨0, by decide⟩ = 0 :=
      dif_neg (show (⟨0, by decide⟩ : Fin 4) ∉ ([3] : List (Fin 4)) by decide)
    rw [hs, Int.zero_add]
    rfl
  | ⟨1, _⟩ =>
    have hs : ScatterDims.start scatter_S32x16x512x256_S128x1_S32x16x512x128_012_3_3_1 (ix4 b c t k) col ⟨1, by decide⟩ = 0 :=
      dif_neg (show (⟨1, by decide⟩ : Fin 4) ∉ ([3] : List (Fin 4)) by decide)
    rw [hs, Int.zero_add]
    rfl
  | ⟨2, _⟩ =>
    have hs : ScatterDims.start scatter_S32x16x512x256_S128x1_S32x16x512x128_012_3_3_1 (ix4 b c t k) col ⟨2, by decide⟩ = 0 :=
      dif_neg (show (⟨2, by decide⟩ : Fin 4) ∉ ([3] : List (Fin 4)) by decide)
    rw [hs, Int.zero_add]
    rfl
  | ⟨3, _⟩ =>
    have hw : ScatterDims.window scatter_S32x16x512x256_S128x1_S32x16x512x128_012_3_3_1 (ix4 b c t k) ⟨3, by decide⟩ = 0 :=
      dif_neg (show (⟨3, by decide⟩ : Fin 4) ∉ ([0, 1, 2] : List (Fin 4)) by decide)
    have hmem : (⟨3, by decide⟩ : Fin 4) ∈ ScatterDims.scatterDimsToOperandDims scatter_S32x16x512x256_S128x1_S32x16x512x128_012_3_3_1 :=
      (show (⟨3, by decide⟩ : Fin 4) ∈ ([3] : List (Fin 4)) by decide)
    have hs : ScatterDims.start scatter_S32x16x512x256_S128x1_S32x16x512x128_012_3_3_1 (ix4 b c t k) col ⟨3, by decide⟩
        = (col (ScatterDims.siIdx scatter_S32x16x512x256_S128x1_S32x16x512x128_012_3_3_1 (ix4 b c t k)
            ⟨List.idxOf (⟨3, by decide⟩ : Fin 4) (ScatterDims.scatterDimsToOperandDims scatter_S32x16x512x256_S128x1_S32x16x512x128_012_3_3_1),
              List.idxOf_lt_length_iff.2 hmem⟩)).toInt :=
      dif_pos hmem
    have hsi : ScatterDims.siIdx scatter_S32x16x512x256_S128x1_S32x16x512x128_012_3_3_1 (ix4 b c t k)
        ⟨List.idxOf (⟨3, by decide⟩ : Fin 4) (ScatterDims.scatterDimsToOperandDims scatter_S32x16x512x256_S128x1_S32x16x512x128_012_3_3_1),
          List.idxOf_lt_length_iff.2 hmem⟩ = ix2 k (0 : Fin 1) := by
      funext e; refine Fin.ext ?_
      match e with
      | ⟨0, _⟩ => rfl
      | ⟨1, _⟩ => rfl
    rw [hs, hsi, hw, BitVec.toInt_eq_toNat_of_lt (by omega)]
    show ((col (ix2 k (0 : Fin 1))).toNat : Int) + ((0 : Nat) : Int) = ((col (ix2 k (0 : Fin 1))).toNat : Int)
    rw [Int.natCast_zero, Int.add_zero]

/-- Update `(b, c, t, k)` lands inside the operand, at `(b, c, t, col k)`. -/
private theorem resultIdx_eq (col : IVec S128x1 32) (b : Fin 32) (c : Fin 16) (t : Fin 512) (k : Fin 128)
    (hk : (col (ix2 k (0 : Fin 1))).toNat < 256) :
    ScatterDims.resultIdx? scatter_S32x16x512x256_S128x1_S32x16x512x128_012_3_3_1 (ix4 b c t k) col
      = some (ix4 b c t ⟨(col (ix2 k (0 : Fin 1))).toNat, hk⟩) := by
  have hb : ∀ a : Fin 4,
      0 ≤ ScatterDims.start scatter_S32x16x512x256_S128x1_S32x16x512x128_012_3_3_1 (ix4 b c t k) col a + (ScatterDims.window scatter_S32x16x512x256_S128x1_S32x16x512x128_012_3_3_1 (ix4 b c t k) a : Int)
      ∧ ScatterDims.start scatter_S32x16x512x256_S128x1_S32x16x512x128_012_3_3_1 (ix4 b c t k) col a + (ScatterDims.window scatter_S32x16x512x256_S128x1_S32x16x512x128_012_3_3_1 (ix4 b c t k) a : Int)
          < S32x16x512x256.size a := by
    intro a
    rw [landing col b c t k hk a]
    exact ⟨Int.natCast_nonneg _, Int.ofNat_lt.2 (Fin.isLt _)⟩
  unfold ScatterDims.resultIdx?
  rw [dif_pos hb]
  congr 1
  funext a
  refine Fin.ext ?_
  show (ScatterDims.start scatter_S32x16x512x256_S128x1_S32x16x512x128_012_3_3_1 (ix4 b c t k) col a
      + (ScatterDims.window scatter_S32x16x512x256_S128x1_S32x16x512x128_012_3_3_1 (ix4 b c t k) a : Int)).toNat = _
  rw [landing col b c t k hk a, Int.toNat_natCast]

/-- With channel numbers in range and pairwise distinct, the set-scatter holds update `(b, c, t, k)`
    at channel `col k` of row `(b, c, t)`. -/
theorem scatter_hit (x : S32x16x512x256.Idx → α) (col : IVec S128x1 32) (upd : S32x16x512x128.Idx → α)
    (hr : ∀ k : Fin 128, (col (ix2 k (0 : Fin 1))).toNat < 256)
    (hinj : ∀ k k' : Fin 128, col (ix2 k (0 : Fin 1)) = col (ix2 k' (0 : Fin 1)) → k = k')
    (b : Fin 32) (c : Fin 16) (t : Fin 512) (k : Fin 128) :
    Host.scatter scatter_S32x16x512x256_S128x1_S32x16x512x128_012_3_3_1 (fun _ v => v) x col upd
        (ix4 b c t ⟨(col (ix2 k (0 : Fin 1))).toNat, hr k⟩)
      = upd (ix4 b c t k) := by
  refine Cert.ScatterSet.scatter_set_hit scatter_S32x16x512x256_S128x1_S32x16x512x128_012_3_3_1 x col upd _ (ix4 b c t k)
    (resultIdx_eq col b c t k (hr k)) ?_
  -- any update landing on the same element has the same row and an equal column entry
  intro j' hj'
  obtain ⟨b', c', t', k', rfl⟩ : ∃ b' c' t' k', j' = ix4 b' c' t' k' := ⟨_, _, _, _, eq_ix4 j'⟩
  rw [resultIdx_eq col b' c' t' k' (hr k')] at hj'
  have h := Option.some.inj hj'
  have h0 : b'.val = b.val := congrArg (fun i : S32x16x512x256.Idx => Fin.val (i ⟨0, by decide⟩)) h
  have h1 : c'.val = c.val := congrArg (fun i : S32x16x512x256.Idx => Fin.val (i ⟨1, by decide⟩)) h
  have h2 : t'.val = t.val := congrArg (fun i : S32x16x512x256.Idx => Fin.val (i ⟨2, by decide⟩)) h
  have h3 : (col (ix2 k' (0 : Fin 1))).toNat = (col (ix2 k (0 : Fin 1))).toNat :=
    congrArg (fun i : S32x16x512x256.Idx => Fin.val (i ⟨3, by decide⟩)) h
  have hk : k' = k := hinj k' k (BitVec.eq_of_toNat_eq h3)
  rw [Fin.ext h0, Fin.ext h1, Fin.ext h2, hk]

/-- A channel that is no entry of the column keeps the operand's element. -/
theorem scatter_miss (x : S32x16x512x256.Idx → α) (col : IVec S128x1 32) (upd : S32x16x512x128.Idx → α)
    (hr : ∀ k : Fin 128, (col (ix2 k (0 : Fin 1))).toNat < 256)
    (b : Fin 32) (c : Fin 16) (t : Fin 512) (f : Fin 256)
    (hf : ∀ k : Fin 128, (col (ix2 k (0 : Fin 1))).toNat ≠ f.val) :
    Host.scatter scatter_S32x16x512x256_S128x1_S32x16x512x128_012_3_3_1 (fun _ v => v) x col upd (ix4 b c t f)
      = x (ix4 b c t f) := by
  refine Cert.ScatterSet.scatter_set_miss scatter_S32x16x512x256_S128x1_S32x16x512x128_012_3_3_1 x col upd _ ?_
  -- an update landing on channel `f` would have `f` as its column entry
  intro j hj
  obtain ⟨b', c', t', k', rfl⟩ : ∃ b' c' t' k', j = ix4 b' c' t' k' := ⟨_, _, _, _, eq_ix4 j⟩
  rw [resultIdx_eq col b' c' t' k' (hr k')] at hj
  have h3 : (col (ix2 k' (0 : Fin 1))).toNat = f.val :=
    congrArg (fun i : S32x16x512x256.Idx => Fin.val (i ⟨3, by decide⟩)) (Option.some.inj hj)
  exact hf k' h3

end Cert.RefIndexing

end
-- ==== Proof.RefAt.lean ====
/-
  The reference program's result read at an index, for channel numbers that all lie in [0, 256)
  and are pairwise distinct.
  With no negative channel number the wrap-around select returns the numbers unchanged, so the
  gather reads X at channel idx k of the same row; the kept-or-zeroed entry is 0 where the mask
  bit is set and the gathered entry elsewhere; the compensation of a row is
  (sum of the gathered − sum of the kept-or-zeroed) / 128; and the set-scatter writes
  entry k + compensation to channel idx k and leaves every other channel of X alone.
-/
import proofs.«413043_j3650722201830_3_alg».proof.Proof.Gen.ReferenceIdeal.Read
import proofs.«413043_j3650722201830_3_alg».proof.Proof.RefIndexing
import Idealize.ShloMosaic.Lib.ValueIdx

set_option maxRecDepth 16384
noncomputable section
open scoped BigOperators
namespace Cert.RefAt
open Cert.ReferenceIdeal Cert.ReferenceIdeal.Gen Cert.ReferenceIdeal.Read Idealize.ShloMosaic Idealize.ShloMosaic.TcCoe Idealize.ShloMosaic.ValueIdx

variable (X : S32x16x512x256.Idx → EReal) (idx : S128.Idx → BitVec 32) (mask : S32x16x512x128.Idx → BitVec 1)

/-- A word below 256 is not negative as a signed word. -/
theorem not_neg_of_lt (w : BitVec 32) (hw : w.toNat < 256) : IntOp.cmpi .slt w 0#32 = 0#1 := by
  unfold IntOp.cmpi
  have h : w.slt 0#32 = false := by
    rw [BitVec.slt, decide_eq_false_iff_not]
    have z0 : (0#32 : BitVec 32).toInt = 0 := by decide
    rw [z0, BitVec.toInt_eq_toNat_cond]
    split <;> omega
  simp [h]

/-- The scatter's column of channel numbers is the channel numbers themselves when none is negative. -/
theorem col21_apply (hr : ∀ k : S128.Idx, (idx k).toNat < 256) (k : Fin 128) :
    val_main_v21 (F := Ideal) idx (ix2 k (0 : Fin 1)) = idx (ix1 k) := by
  have e : idx_main_v21 (ix2 k (0 : Fin 1)) = ix1 k := funext fun a => by
    match a with
    | ⟨0, _⟩ => rfl
  rw [val_main_v21_apply, val_main_v20_apply, val_main_v17_apply, val_main_v16_apply, val_main_c_4_apply, e,
    not_neg_of_lt _ (hr _), select_zero]

/-- The same for the gather's column. -/
theorem col5_apply (hr : ∀ k : S128.Idx, (idx k).toNat < 256) (k : Fin 128) :
    val_main_v5 (F := Ideal) idx (ix2 k (0 : Fin 1)) = idx (ix1 k) := by
  have e : idx_main_v5 (ix2 k (0 : Fin 1)) = ix1 k := funext fun a => by
    match a with
    | ⟨0, _⟩ => rfl
  rw [val_main_v5_apply, val_main_v4_apply, val_main_v1_apply, val_main_v0_apply, val_main_c_apply, e,
    not_neg_of_lt _ (hr _), select_zero]

/-- Channel number k as a channel. -/
abbrev chan (hr : ∀ k : S128.Idx, (idx k).toNat < 256) (k : Fin 128) : Fin 256 := ⟨(idx (ix1 k)).toNat, hr _⟩

/-- The gathered entry (b, c, t, k) is X at channel number k of the same row. -/
theorem sub_apply (hr : ∀ k : S128.Idx, (idx k).toNat < 256) (b : Fin 32) (c : Fin 16) (t : Fin 512) (k : Fin 128) :
    val_main_v6 (F := Ideal) X idx (ix4 b c t k) = X (ix4 b c t (chan idx hr k)) := by
  unfold val_main_v6
  have hk : (val_main_v5 (F := Ideal) idx (ix2 k (0 : Fin 1))).toNat < 256 := by rw [col5_apply idx hr k]; exact hr _
  rw [RefIndexing.gather_apply X (val_main_v5 (F := Ideal) idx) b c t k hk]
  refine congrArg X (congrArg (ix4 b c t) (Fin.ext ?_))
  show (val_main_v5 (F := Ideal) idx (ix2 k (0 : Fin 1))).toNat = (idx (ix1 k)).toNat
  rw [col5_apply idx hr k]

/-- The kept-or-zeroed entry: 0 where the mask bit is set, the gathered entry elsewhere. -/
abbrev zeroed (hr : ∀ k : S128.Idx, (idx k).toNat < 256) (b : Fin 32) (c : Fin 16) (t : Fin 512) (k : Fin 128) : EReal :=
  Scalar.select (mask (ix4 b c t k)) (Ideal.ofBits .f32 0x00000000#32) (X (ix4 b c t (chan idx hr k)))

/-- The select of the reference is the kept-or-zeroed entry. -/
theorem v8_apply (hr : ∀ k : S128.Idx, (idx k).toNat < 256) (b : Fin 32) (c : Fin 16) (t : Fin 512) (k : Fin 128) :
    val_main_v8 (F := Ideal) X idx mask (ix4 b c t k) = zeroed X idx mask hr b c t k := by
  rw [val_main_v8_apply, sub_apply X idx hr, val_main_call0_v0_apply, val_main_cst_1_apply]
  rfl

/-- The compensation of row (b, c, t): (sum of the gathered − sum of the kept-or-zeroed) / 128. -/
abbrev comp (hr : ∀ k : S128.Idx, (idx k).toNat < 256) (b : Fin 32) (c : Fin 16) (t : Fin 512) : EReal :=
  Ideal.div ((Ideal.ofBits .f32 0x00000000#32 + ∑ k : Fin 128, X (ix4 b c t (chan idx hr k)))
      - (Ideal.ofBits .f32 0x00000000#32 + ∑ k : Fin 128, zeroed X idx mask hr b c t k))
    (Ideal.ofBits .f32 0x43000000#32)

/-- The updates the scatter writes: kept-or-zeroed entry plus the row's compensation. -/
theorem v15_apply (hr : ∀ k : S128.Idx, (idx k).toNat < 256) (b : Fin 32) (c : Fin 16) (t : Fin 512) (k : Fin 128) :
    val_main_v15 (F := Ideal) X idx mask (ix4 b c t k) = zeroed X idx mask hr b c t k + comp X idx mask hr b c t := by
  rw [val_main_v15_apply, v8_apply X idx mask hr, val_main_v14_apply, val_main_v13_apply, val_main_v12_apply, val_main_v10_apply,
    val_main_v7_apply, val_main_v9_apply, val_main_v11_apply, val_main_cst_3_apply, val_main_cst_apply, val_main_cst_2_apply]
  have e7 : ∀ k' : Fin 128, idx_main_v7 (idx_main_v13 (idx_main_v14 (ix4 b c t k))) k' = ix4 b c t k' := fun k' => funext fun a => by
    match a with
    | ⟨0, _⟩ => rfl
    | ⟨1, _⟩ => rfl
    | ⟨2, _⟩ => rfl
    | ⟨3, _⟩ => rfl
  have e9 : ∀ k' : Fin 128, idx_main_v9 (idx_main_v13 (idx_main_v14 (ix4 b c t k))) k' = ix4 b c t k' := fun k' => funext fun a => by
    match a with
    | ⟨0, _⟩ => rfl
    | ⟨1, _⟩ => rfl
    | ⟨2, _⟩ => rfl
    | ⟨3, _⟩ => rfl
  simp only [e7, e9, sub_apply X idx hr, v8_apply X idx mask hr]
  rfl

/-- On a selected channel the reference holds the kept-or-zeroed entry plus the row's compensation. -/
theorem ref_hit (hr : ∀ k : S128.Idx, (idx k).toNat < 256) (hinj : ∀ k k' : S128.Idx, idx k = idx k' → k = k')
    (b : Fin 32) (c : Fin 16) (t : Fin 512) (k : Fin 128) :
    val_main_v22 (F := Ideal) X idx mask (ix4 b c t (chan idx hr k)) = zeroed X idx mask hr b c t k + comp X idx mask hr b c t := by
  unfold val_main_v22
  have hr' : ∀ k : Fin 128, (val_main_v21 (F := Ideal) idx (ix2 k (0 : Fin 1))).toNat < 256 := fun k => by
    rw [col21_apply idx hr k]; exact hr _
  have hinj' : ∀ k k' : Fin 128, val_main_v21 (F := Ideal) idx (ix2 k (0 : Fin 1)) = val_main_v21 (F := Ideal) idx (ix2 k' (0 : Fin 1)) → k = k' := fun k k' h => by
    rw [col21_apply idx hr k, col21_apply idx hr k'] at h
    have := hinj _ _ h
    have h0 := congrFun this 0
    exact h0
  have e : (ix4 b c t (chan idx hr k) : S32x16x512x256.Idx)
      = ix4 b c t ⟨(val_main_v21 (F := Ideal) idx (ix2 k (0 : Fin 1))).toNat, hr' k⟩ :=
    congrArg (ix4 b c t) (Fin.ext (congrArg BitVec.toNat (col21_apply idx hr k).symm))
  rw [e, RefIndexing.scatter_hit X (val_main_v21 (F := Ideal) idx) (val_main_v15 (F := Ideal) X idx mask) hr' hinj' b c t k]
  exact v15_apply X idx mask hr b c t k

/-- On a channel that is not selected the reference keeps X. -/
theorem ref_miss (hr : ∀ k : S128.Idx, (idx k).toNat < 256) (b : Fin 32) (c : Fin 16) (t : Fin 512) (f : Fin 256)
    (hf : ∀ k : Fin 128, chan idx hr k ≠ f) :
    val_main_v22 (F := Ideal) X idx mask (ix4 b c t f) = X (ix4 b c t f) := by
  unfold val_main_v22
  have hr' : ∀ k : Fin 128, (val_main_v21 (F := Ideal) idx (ix2 k (0 : Fin 1))).toNat < 256 := fun k => by
    rw [col21_apply idx hr k]; exact hr _
  refine RefIndexing.scatter_miss X (val_main_v21 (F := Ideal) idx) (val_main_v15 (F := Ideal) X idx mask) hr' b c t f fun k h => hf k (Fin.ext ?_)
  exact (congrArg BitVec.toNat (col21_apply idx hr k).symm).trans h

end Cert.RefAt
end
-- ==== Proof.RowAlgebra.lean ====
/-
  One row of the computation, over the reals. A row x of 256 channels, 128 pairwise distinct
  selected channels σ k, and a drop flag b k per selected channel.
  One side forms the 0/1 "dropped" indicator of every channel as a sum over k of products of
  0/1 factors, multiplies, sums the dropped mass over all 256 channels, scales by 1/128 and adds
  it back on the selected channels through a second 0/1 indicator.
  The other side gathers the 128 selected entries, zeroes the dropped ones, and adds
  (sum of all selected − sum of the kept) / 128 to each selected entry.
  Because σ is injective each channel has at most one k, so the indicator sums collapse and
  the dropped mass is the same sum on both sides.
-/
import Idealize.ShloMosaic.PureOps.Ideal

noncomputable section

open scoped BigOperators

namespace Cert.RowAlgebra

/-- The 0/1 "dropped" indicator of channel `f`: a sum over the selected channels. -/
def dropInd (σ : Fin 128 → Fin 256) (b : Fin 128 → Bool) (f : Fin 256) : ℝ :=
  ∑ k : Fin 128, (if b k then (1 : ℝ) else 0) * (if σ k = f then (1 : ℝ) else 0)

/-- The 0/1 "selected" indicator of channel `f`. -/
def selInd (σ : Fin 128 → Fin 256) (f : Fin 256) : ℝ :=
  ∑ k : Fin 128, (if σ k = f then (1 : ℝ) else 0)

/-- The dropped mass of the row. -/
def dropMass (x : Fin 256 → ℝ) (σ : Fin 128 → Fin 256) (b : Fin 128 → Bool) : ℝ :=
  ∑ f : Fin 256, x f * dropInd σ b f

/-- With σ injective, the dropped indicator at a selected channel is the drop flag. -/
private lemma dropInd_hit (σ : Fin 128 → Fin 256) (hσ : Function.Injective σ) (b : Fin 128 → Bool)
    (k : Fin 128) : dropInd σ b (σ k) = if b k then (1 : ℝ) else 0 := by
  unfold dropInd
  rw [Finset.sum_eq_single k]
  · simp
  · intro k' _ hk'
    have hne : σ k' ≠ σ k := fun h => hk' (hσ h)
    simp [hne]
  · intro h
    exact absurd (Finset.mem_univ k) h

/-- With σ injective, the selected indicator at a selected channel is 1. -/
private lemma selInd_hit (σ : Fin 128 → Fin 256) (hσ : Function.Injective σ) (k : Fin 128) :
    selInd σ (σ k) = 1 := by
  unfold selInd
  rw [Finset.sum_eq_single k]
  · simp
  · intro k' _ hk'
    have hne : σ k' ≠ σ k := fun h => hk' (hσ h)
    simp [hne]
  · intro h
    exact absurd (Finset.mem_univ k) h

/-- Off the selected channels the dropped indicator vanishes. -/
private lemma dropInd_miss (σ : Fin 128 → Fin 256) (b : Fin 128 → Bool) (f : Fin 256)
    (hf : ∀ k : Fin 128, σ k ≠ f) : dropInd σ b f = 0 := by
  unfold dropInd
  apply Finset.sum_eq_zero
  intro k _
  simp [hf k]

/-- Off the selected channels the selected indicator vanishes. -/
private lemma selInd_miss (σ : Fin 128 → Fin 256) (f : Fin 256)
    (hf : ∀ k : Fin 128, σ k ≠ f) : selInd σ f = 0 := by
  unfold selInd
  apply Finset.sum_eq_zero
  intro k _
  simp [hf k]

/-- The dropped mass is the sum of the dropped selected entries (no injectivity needed). -/
private lemma dropMass_eq (x : Fin 256 → ℝ) (σ : Fin 128 → Fin 256) (b : Fin 128 → Bool) :
    dropMass x σ b = ∑ k : Fin 128, (if b k then x (σ k) else 0) := by
  unfold dropMass dropInd
  simp_rw [Finset.mul_sum]
  rw [Finset.sum_comm]
  apply Finset.sum_congr rfl
  intro k _
  rw [Finset.sum_eq_single (σ k)]
  · cases b k <;> simp
  · intro f _ hf
    have hne : σ k ≠ f := fun h => hf h.symm
    simp [hne]
  · intro h
    exact absurd (Finset.mem_univ (σ k)) h

/-- All selected minus the kept selected is the dropped selected. -/
private lemma sum_sub_kept (x : Fin 256 → ℝ) (σ : Fin 128 → Fin 256) (b : Fin 128 → Bool) :
    (∑ k' : Fin 128, x (σ k')) - ∑ k' : Fin 128, (if b k' then 0 else x (σ k'))
      = ∑ k : Fin 128, (if b k then x (σ k) else 0) := by
  rw [← Finset.sum_sub_distrib]
  apply Finset.sum_congr rfl
  intro k _
  cases b k <;> simp

/-- On a selected channel the two sides agree. -/
theorem row_hit (x : Fin 256 → ℝ) (σ : Fin 128 → Fin 256) (hσ : Function.Injective σ) (b : Fin 128 → Bool) (k : Fin 128) :
    (x (σ k) - x (σ k) * dropInd σ b (σ k)) + (dropMass x σ b * (1 / 128)) * selInd σ (σ k)
      = (if b k then 0 else x (σ k))
        + ((∑ k' : Fin 128, x (σ k')) - ∑ k' : Fin 128, (if b k' then 0 else x (σ k'))) / 128 := by
  rw [dropInd_hit σ hσ b k, selInd_hit σ hσ k, dropMass_eq, sum_sub_kept]
  cases hb : b k <;> simp <;> ring

/-- On a channel that is not selected the first side returns the entry unchanged. -/
theorem row_miss (x : Fin 256 → ℝ) (σ : Fin 128 → Fin 256) (b : Fin 128 → Bool) (f : Fin 256)
    (hf : ∀ k : Fin 128, σ k ≠ f) :
    (x f - x f * dropInd σ b f) + (dropMass x σ b * (1 / 128)) * selInd σ f = x f := by
  rw [dropInd_miss σ b f hf, selInd_miss σ f hf]
  ring

/-- A real sum, coerced to the extended reals, is the sum of the coerced terms. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih =>
    rw [Finset.sum_insert ha, Finset.sum_insert ha, EReal.coe_add, ih]

end Cert.RowAlgebra

end
-- ==== Proof.Bridge.lean ====
/-
  The two programs compute the same array, index by index, when X is finite and the 128 channel
  numbers lie in [0, 256) and are pairwise distinct.
  Fix a row (b, c, t). Write x for the row's 256 entries (real numbers), σ k for channel number k
  (an injective map into the 256 channels) and b k for "mask bit k is set".
  The kernel side forms the 0/1 table [σ k = q], the "dropped" indicator d(q) = Σ_k [b k]·[σ k = q],
  the dropped mass Σ_q x(q)·d(q), and returns (x − x·d) + (mass · 1/128) · Σ_k [σ k = q].
  The reference side returns, on channel σ k, (0 if b k else x(σ k)) + (Σ x∘σ − Σ kept) / 128,
  and x elsewhere. All sums are finite sums of reals, 2⁻⁷ is exactly 1/128 and dividing by 128
  is multiplying by 1/128, so both sides are coercions of real expressions and the real
  identity for one row joins them. Finiteness of X is what lets x − x cancel and 0 · mass vanish.
-/
import proofs.«413043_j3650722201830_3_alg».proof.Proof.KernelResult
import proofs.«413043_j3650722201830_3_alg».proof.Proof.RefAt
import proofs.«413043_j3650722201830_3_alg».proof.Proof.RowAlgebra

set_option maxRecDepth 16384
noncomputable section
open scoped BigOperators
namespace Cert.Bridge
open Idealize.ShloMosaic Idealize.ShloMosaic.ValueIdx Cert.RowAlgebra

/-- The pattern 0x3C000000 is 2⁻⁷ = 1/128. -/
theorem ofBits_inv128 : Ideal.ofBits .f32 0x3C000000#32 = ((1 / 128 : ℝ) : EReal) := by
  simp [Ideal.ofBits, Ideal.ieee, -EReal.coe_mul]; norm_num

/-- The pattern 0x43000000 is 128. -/
theorem ofBits_128 : Ideal.ofBits .f32 0x43000000#32 = ((128 : ℝ) : EReal) := by
  simp [Ideal.ofBits, Ideal.ieee, -EReal.coe_mul]; norm_num

/-- The zero pattern is 0. -/
theorem ofBits_zero : Ideal.ofBits .f32 0x00000000#32 = ((0 : ℝ) : EReal) := by
  rw [Ideal.ofBits_zero_f32]; rfl

/-- The flag of a widened mask bit is 1 when the bit is set and 0 when it is clear. -/
theorem flag_bit (w : BitVec 1) : Cert.KernelIdeal.Pay.flag (w.setWidth 32) = (((if w = 1#1 then 1 else 0 : ℝ)) : EReal) := by
  show ((((IntOp.cmpi .ne (w.setWidth 32) 0#32).setWidth 32).toInt : ℝ) : EReal) = _
  rcases BitVec.eq_zero_or_eq_one w with rfl | rfl
  · have h : ((IntOp.cmpi .ne ((0#1 : BitVec 1).setWidth 32) 0#32).setWidth 32).toInt = 0 := by decide
    rw [h, if_neg (by decide)]; simp
  · have h : ((IntOp.cmpi .ne ((1#1 : BitVec 1).setWidth 32) 0#32).setWidth 32).toInt = 1 := by decide
    rw [h, if_pos rfl]; simp

/-- The table entry (k, q) is 1 when channel number k is q and 0 otherwise. -/
theorem table_real (idx : Cert.KernelIdeal.S128.Idx → BitVec 32) (k : Fin 128) (q : Fin 256) :
    Cert.KernelIdeal.KA.table idx (ix2 k q) = (((if (idx (ix1 k)).toNat = q.val then 1 else 0 : ℝ)) : EReal) := by
  rw [Cert.KernelIdeal.KA.table_apply]
  have e : (Shape.Idx.ofFin k : Cert.KernelIdeal.S128.Idx) = ix1 k := funext fun a => by
    match a with
    | ⟨0, _⟩ => rfl
  rw [e]
  have hq : q.val < 2 ^ 32 := by have := q.isLt; omega
  by_cases h : (idx (ix1 k)).toNat = q.val
  · have hw : idx (ix1 k) = BitVec.ofNat 32 q.val := BitVec.eq_of_toNat_eq (by rw [h, BitVec.toNat_ofNat, Nat.mod_eq_of_lt hq])
    rw [if_pos h, hw]
    simp [IntOp.cmpi]
  · have hw : idx (ix1 k) ≠ BitVec.ofNat 32 q.val := fun hw => h (by rw [hw, BitVec.toNat_ofNat, Nat.mod_eq_of_lt hq])
    rw [if_neg h]
    simp [IntOp.cmpi, hw]

/-- The two programs' results agree at every index, for a finite X and in-range, pairwise distinct channel numbers. -/
theorem result_at (X : Cert.ReferenceIdeal.S32x16x512x256.Idx → EReal) (idx : Cert.ReferenceIdeal.S128.Idx → BitVec 32)
    (mask : Cert.ReferenceIdeal.S32x16x512x128.Idx → BitVec 1)
    [Cert.KernelIdeal.Facts] [Cert.ReferenceIdeal.Facts]
    (hfin : ∀ i, ∃ r : ℝ, X i = (r : EReal)) (hr : ∀ k : Cert.ReferenceIdeal.S128.Idx, (idx k).toNat < 256)
    (hinj : ∀ k k' : Cert.ReferenceIdeal.S128.Idx, idx k = idx k' → k = k')
    (b : Fin 32) (c : Fin 16) (t : Fin 512) (f : Fin 256) :
    Cert.KernelIdeal.KA.kernelResult X idx mask (ix4 b c t f) = Cert.ReferenceIdeal.Read.val_main_v22 (F := Ideal) X idx mask (ix4 b c t f) := by
  rw [Cert.KernelIdeal.KA.kernelResult_apply]
  -- the row's entries as reals, the selected channels, the drop flags
  choose xr hxr using fun q : Fin 256 => hfin (ix4 b c t q)
  let σ : Fin 128 → Fin 256 := Cert.RefAt.chan idx hr
  have hσ : Function.Injective σ := fun k k' h => by
    have hv : (idx (ix1 k)).toNat = (idx (ix1 k')).toNat := by
      have := congrArg (fun z : Fin 256 => z.val) h
      exact this
    have := hinj _ _ (BitVec.eq_of_toNat_eq hv)
    exact congrFun this 0
  let bb : Fin 128 → Bool := fun k => decide (mask (ix4 b c t k) = 1#1)
  have hT : ∀ (k : Fin 128) (q : Fin 256), Cert.KernelIdeal.KA.table idx (ix2 k q) = (((if σ k = q then 1 else 0 : ℝ)) : EReal) := fun k q => by
    rw [table_real]
    by_cases h : (idx (ix1 k)).toNat = q.val
    · rw [if_pos h, if_pos (Fin.ext h)]
    · rw [if_neg h, if_neg (fun e => h (congrArg Fin.val e))]
  have hF : ∀ k : Fin 128, Cert.KernelIdeal.Pay.flag ((mask (ix4 b c t k)).setWidth 32) = (((if bb k then 1 else 0 : ℝ)) : EReal) := fun k => by
    rw [flag_bit]
    by_cases h : mask (ix4 b c t k) = 1#1
    · simp [bb, h]
    · simp [bb, h]
  have hD : ∀ q : Fin 256, Cert.KernelIdeal.KA.dropAt idx mask b c t q = ((dropInd σ bb q : ℝ) : EReal) := fun q => by
    unfold dropInd
    rw [coe_sum]
    refine Finset.sum_congr rfl fun k _ => ?_
    rw [hF k, hT k q, EReal.coe_mul]
  have hM : (∑ q' : Fin 256, X (ix4 b c t q') * Cert.KernelIdeal.KA.dropAt idx mask b c t q') = ((dropMass xr σ bb : ℝ) : EReal) := by
    unfold dropMass
    rw [coe_sum]
    refine Finset.sum_congr rfl fun q' _ => ?_
    rw [hxr q', hD q', EReal.coe_mul]
  have hS : Ideal.ofBits .f32 0x00000000#32 + ∑ k : Fin 128, Cert.KernelIdeal.KA.table idx (ix2 k f) = ((selInd σ f : ℝ) : EReal) := by
    unfold selInd
    rw [coe_sum, Ideal.ofBits_zero_f32, zero_add]
    exact Finset.sum_congr rfl fun k _ => hT k f
  rw [hxr f, hD f, hM, hS, ofBits_inv128]
  simp only [← EReal.coe_mul, ← EReal.coe_sub, ← EReal.coe_add]
  by_cases hf : ∃ k : Fin 128, σ k = f
  · obtain ⟨k, rfl⟩ := hf
    rw [Cert.RefAt.ref_hit X idx mask hr hinj b c t k, row_hit xr σ hσ bb k]
    -- the reference's kept-or-zeroed entries and its compensation, as reals
    have hZ : ∀ k' : Fin 128, Cert.RefAt.zeroed X idx mask hr b c t k' = (((if bb k' then 0 else xr (σ k') : ℝ)) : EReal) := fun k' => by
      show Scalar.select (mask (ix4 b c t k')) (Ideal.ofBits .f32 0x00000000#32) (X (ix4 b c t (σ k'))) = _
      by_cases h : mask (ix4 b c t k') = 1#1
      · rw [h, select_one, Ideal.ofBits_zero_f32]; simp [bb, h]
      · rw [eq_zero_of_ne_one h, select_zero, hxr]; simp [bb, h]
    have hC : Cert.RefAt.comp X idx mask hr b c t
        = ((((∑ k' : Fin 128, xr (σ k')) - ∑ k' : Fin 128, (if bb k' then 0 else xr (σ k'))) / 128 : ℝ) : EReal) := by
      show Ideal.div ((Ideal.ofBits .f32 0x00000000#32 + ∑ k' : Fin 128, X (ix4 b c t (σ k')))
          - (Ideal.ofBits .f32 0x00000000#32 + ∑ k' : Fin 128, Cert.RefAt.zeroed X idx mask hr b c t k')) (Ideal.ofBits .f32 0x43000000#32) = _
      rw [ofBits_128, Ideal.div_coe (by norm_num : (128 : ℝ) ≠ 0), Ideal.ofBits_zero_f32, zero_add, zero_add]
      have h1 : (∑ k' : Fin 128, X (ix4 b c t (σ k'))) = ((∑ k' : Fin 128, xr (σ k') : ℝ) : EReal) := by
        rw [coe_sum]; exact Finset.sum_congr rfl fun k' _ => hxr (σ k')
      have h2 : (∑ k' : Fin 128, Cert.RefAt.zeroed X idx mask hr b c t k') = ((∑ k' : Fin 128, (if bb k' then 0 else xr (σ k')) : ℝ) : EReal) := by
        rw [coe_sum]; exact Finset.sum_congr rfl fun k' _ => hZ k'
      rw [h1, h2, ← EReal.coe_sub, ← EReal.coe_mul]
      congr 1
      ring
    rw [hZ k, hC, ← EReal.coe_add]
  · have hf' : ∀ k : Fin 128, σ k ≠ f := fun k e => hf ⟨k, e⟩
    rw [Cert.RefAt.ref_miss X idx mask hr b c t f hf', row_miss xr σ bb f hf', hxr f]

end Cert.Bridge
end
-- ==== Proof.lean ====
/-
  Dropout on a subset of channels with sum compensation: a one-pass kernel against gather / scatter.

  X : [32, 16, 512, 256] real (finite), idx : 128 channel numbers, mask : [32, 16, 512, 128] bits.
  Reference: gather the 128 channels idx k of every row, zero the entries whose mask bit is set,
  add (sum of the gathered − sum of the kept) / 128 to each of the 128 entries, and scatter them
  back to their channels; all other channels keep X.
  Kernel: build the 0/1 table G[k, q] = [idx k = q] and its column sums s[q]; per row form
  d = flags · G (a matrix product), then X − X·d + ((Σ_q X·d) · 2⁻⁷) · s, in one pass over 64
  row blocks, on the arrays flattened to [262144, ·].

  The statement holds under: X finite; 0 ≤ idx k < 256 (the reference indexes channel idx k);
  idx pairwise distinct (with a repeated channel number the reference's scatter writes the same
  channel twice and its result depends on the order of the writes, while the kernel's table sums
  the repeats).

  Frames: the kernel programs' are the generated ones; the reference's is its generated run
  with the result dropped. The idealization rewrote nothing, so its conjunct is `True`.
  Equal results: the kernel's run ends at `kernelResult` of the arguments (block formula, cover
  by the 64 blocks, regrouping), the reference's at its composed term, and `Bridge.result_at`
  shows the two equal at every index (b, c, t, f).
-/
import proofs.«413043_j3650722201830_3_alg».proof.Defs
import proofs.«413043_j3650722201830_3_alg».proof.Proof.Gen.Kernel
import proofs.«413043_j3650722201830_3_alg».proof.Proof.Gen.Kernel.Skeleton
import proofs.«413043_j3650722201830_3_alg».proof.Proof.Gen.Kernel.Launch
import proofs.«413043_j3650722201830_3_alg».proof.Proof.Gen.Kernel.Points
import proofs.«413043_j3650722201830_3_alg».proof.Proof.Gen.Kernel.Frame
import proofs.«413043_j3650722201830_3_alg».proof.Proof.Gen.KernelIdeal
import proofs.«413043_j3650722201830_3_alg».proof.Proof.Gen.KernelIdeal.Skeleton
import proofs.«413043_j3650722201830_3_alg».proof.Proof.Gen.KernelIdeal.Launch
import proofs.«413043_j3650722201830_3_alg».proof.Proof.Gen.KernelIdeal.Points
import proofs.«413043_j3650722201830_3_alg».proof.Proof.Gen.KernelIdeal.Frame
import proofs.«413043_j3650722201830_3_alg».proof.Proof.Gen.ReferenceIdeal
import proofs.«413043_j3650722201830_3_alg».proof.Proof.Gen.Pre_finite_inputs
import proofs.«413043_j3650722201830_3_alg».proof.Proof.Gen.ReferenceIdeal.Run
import proofs.«413043_j3650722201830_3_alg».proof.Proof.Gen.ReferenceIdeal.Read
import proofs.«413043_j3650722201830_3_alg».proof.Proof.KernelResult
import proofs.«413043_j3650722201830_3_alg».proof.Proof.PreFacts
import proofs.«413043_j3650722201830_3_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the same array: the kernel's run ends at its
    one function of the arguments, the reference's at its composed term, and under the precondition
    (X finite, channel numbers in range and distinct) the two are equal index by index. -/
theorem algebraic : Cert.algebraic_KernelIdeal_ReferenceIdeal := by
  intro m ρ m' ρ' hpre hagree
  refine ⟨fun c => Cert.KernelIdeal.KA.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KA.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))).trans ?_
  rw [(hagree c).1, (hagree c).2.1, (hagree c).2.2]
  have hp := hpre c
  funext i
  obtain ⟨b, c', t, f, rfl⟩ : ∃ (b : Fin 32) (c' : Fin 16) (t : Fin 512) (f : Fin 256), i = ix4 b c' t f :=
    ⟨i 0, i 1, i 2, i 3, eq_ix4 i⟩
  exact (Cert.Bridge.result_at _ _ _
    (Cert.PreFacts.finite_of_pre _ _ _ hp) (Cert.PreFacts.inRange_of_pre _ _ _ hp) (Cert.PreFacts.distinct_of_pre _ _ _ hp) b c' t f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
